-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x1 : Shape := ⟨2, ![800000, 1]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg2 : IVec S2x800000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : IVec S1x800000 32 := (extractStridedSlice S1x800000 ![0, 0] · slices_S2x800000_S1x800000_0_0) main_arg2
  let main_v40 : IVec S800000 32 := shapeCast S800000 main_v39 shapeCasts_S1x800000_S800000
  let main_c_14 : IVec S_ 32 := constantI S_ 32 0#32
  let main_v41 : IVec S800000 32 := broadcastInDim S800000 ![] bcast_S_S800000 main_c_14
  let main_v42 : IVec S800000 1 := cmpi .sge main_v40 main_v41
  let main_v43 : IVec S1x800000 32 := (extractStridedSlice S1x800000 ![0, 0] · slices_S2x800000_S1x800000_0_0) main_arg2
  let main_v44 : IVec S800000 32 := shapeCast S800000 main_v43 shapeCasts_S1x800000_S800000
  let main_c_15 : IVec S_ 32 := constantI S_ 32 50000#32
  let main_v45 : IVec S800000 32 := broadcastInDim S800000 ![] bcast_S_S800000 main_c_15
  let main_v46 : IVec S800000 1 := cmpi .slt main_v44 main_v45
  let main_v47 : IVec S800000 1 := andi main_v42 main_v46
  let main_c_16 : IVec S_ 1 := constantI S_ 1 1#1
  let main_v48 : IVec S_ 1 := (fun x v => Host.reduce IntOp.andi x v reducesTo_S800000_S_d0 h_S_) main_v47 main_c_16
  let main_v49 : IVec S_ 1 := andi main_v38 main_v48
  main_v49

def fn_part1 {F : FTy → Type} [FloatOps F] (main_arg2 : IVec S2x800000 32) (main_arg5 : FVec F S256x256 .f32) (main_arg6 : FVec F S256 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg8 main_v33

def fn {F : FTy → Type} [FloatOps F] (main_arg0 : FVec F S50000x256 .f32) (main_arg1 : FVec F S800000x1 .f32) (main_arg2 : IVec S2x800000 32) (main_arg3 : FVec F S256x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_v13 main_v16
-- ==== Kernel.lean ====
abbrev S50000x256 : Shape := ⟨2, ![50000, 256]⟩
abbrev S800000x1 : Shape := ⟨2, ![800000, 1]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S1 : Shape := ⟨1, ![1]⟩
abbrev S1x1 : Shape := ⟨2, ![1, 1]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 160
  | .vmem => 15
  | .smem => 0
  | _ => 0

abbrev hbmTy0_0 (i : Nat) : BufTy := match i % 128 with
  | 0 => ⟨S50000x256, .f32⟩
  | 1 => ⟨S800000x1, .f32⟩
  | 2 => ⟨S2x800000, .i32⟩
  | 3 => ⟨S256x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x256, .f32⟩
  | 53 => ⟨S850000x1, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S1, .i32⟩
  | 63 => ⟨S_, .i32⟩
  | 64 => ⟨S850000x1, .i32⟩
  | 65 => ⟨S850000x1, .i1⟩
  | 66 => ⟨S1x1, .i32⟩
  | 67 => ⟨S850000x1, .i32⟩
  | 68 => ⟨S850000x1, .i1⟩
  | 69 => ⟨S850000x1, .i1⟩
  | 70 => ⟨S_, .i1⟩
  | 71 => ⟨S850000, .i1⟩
  | 72 => ⟨S850000x256, .f32⟩
  | 73 => ⟨S850000x256, .i1⟩
  | 74 => ⟨S_, .f32⟩
  | 75 => ⟨S850000x256, .f32⟩
  | 76 => ⟨S850000x256, .f32⟩
  | 77 => ⟨S850000x256, .f32⟩
  | 78 => ⟨S850000x256, .f32⟩
  | 79 => ⟨S_, .f32⟩
  | 80 => ⟨S50000x256, .f32⟩
  | 81 => ⟨S850000x1, .i32⟩
  | 82 => ⟨S50000x256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S50000x256, .f32⟩
  | 90 => ⟨S850000x1, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S1, .i32⟩
  | 100 => ⟨S_, .i32⟩
  | 101 => ⟨S850000x1, .i32⟩
  | 102 => ⟨S850000x1, .i1⟩
  | 103 => ⟨S1x1, .i32⟩
  | 104 => ⟨S850000x1, .i32⟩
  | 105 => ⟨S850000x1, .i1⟩
  | 106 => ⟨S850000x1, .i1⟩
  | 107 => ⟨S_, .i1⟩
  | 108 => ⟨S850000, .i1⟩
  | 109 => ⟨S850000x256, .f32⟩
  | 110 => ⟨S850000x256, .i1⟩
  | 111 => ⟨S_, .f32⟩
  | 112 => ⟨S850000x256, .f32⟩
  | 113 => ⟨S850000x256, .f32⟩
  | 114 => ⟨S850000x256, .f32⟩
  | 115 => ⟨S850000x256, .f32⟩
  | 116 => ⟨S_, .f32⟩
  | 117 => ⟨S50000x256, .f32⟩
  | 118 => ⟨S850000x1, .i32⟩
  | 119 => ⟨S50000x256, .f32⟩
  | 120 => ⟨S1x256, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S50000x128, .f32⟩
  | 127 => ⟨S850000x1, .f32⟩
  | _ => ⟨S50000x256, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S1, .i32⟩
  | 9 => ⟨S_, .i32⟩
  | 10 => ⟨S850000x1, .i32⟩
  | 11 => ⟨S850000x1, .i1⟩
  | 12 => ⟨S1x1, .i32⟩
  | 13 => ⟨S850000x1, .i32⟩
  | 14 => ⟨S850000x1, .i1⟩
  | 15 => ⟨S850000x1, .i1⟩
  | 16 => ⟨S_, .i1⟩
  | 17 => ⟨S850000, .i1⟩
  | 18 => ⟨S850000x128, .f32⟩
  | 19 => ⟨S850000x128, .i1⟩
  | 20 => ⟨S_, .f32⟩
  | 21 => ⟨S850000x128, .f32⟩
  | 22 => ⟨S850000x128, .f32⟩
  | 23 => ⟨S850000x128, .f32⟩
  | 24 => ⟨S850000x128, .f32⟩
  | 25 => ⟨S_, .f32⟩
  | 26 => ⟨S50000x128, .f32⟩
  | 27 => ⟨S850000x1, .i32⟩
  | 28 => ⟨S50000x128, .f32⟩
  | 29 => ⟨S1x128, .f32⟩
  | 30 => ⟨S50000x128, .f32⟩
  | 31 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_7 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_call2_cst : Ref sig .tc := ⟨.hbm, 86, rfl⟩
abbrev main_call2_v0 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_8 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_call4_cst : Ref sig .tc := ⟨.hbm, 123, rfl⟩
abbrev main_call4_v0 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_call5_c : Ref sig .tc := ⟨.hbm, 128, rfl⟩
abbrev main_call5_v0 : Ref sig .tc := ⟨.hbm, 129, rfl⟩
abbrev main_call5_v1 : Ref sig .tc := ⟨.hbm, 130, rfl⟩
abbrev main_call5_c_0 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_call5_v5 : Ref sig .tc := ⟨.hbm, 135, rfl⟩
abbrev main_call5_c_1 : Ref sig .tc := ⟨.hbm, 136, rfl⟩
abbrev main_call5_c_2 : Ref sig .tc := ⟨.hbm, 137, rfl⟩
abbrev main_call5_v6 : Ref sig .tc := ⟨.hbm, 138, rfl⟩
abbrev main_call5_v7 : Ref sig .tc := ⟨.hbm, 139, rfl⟩
abbrev main_call5_v8 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_c_3 : Ref sig .tc := ⟨.hbm, 144, rfl⟩
abbrev main_call5_v12 : Ref sig .tc := ⟨.hbm, 145, rfl⟩
abbrev main_call5_v13 : Ref sig .tc := ⟨.hbm, 146, rfl⟩
abbrev main_call5_v14 : Ref sig .tc := ⟨.hbm, 147, rfl⟩
abbrev main_call5_cst : Ref sig .tc := ⟨.hbm, 148, rfl⟩
abbrev main_call5_v15 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_9 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x256_0 : S850000.BroadcastsInDim S850000x256 (![0] : Fin 1 → Fin S850000x256.rank)
  bcast_S_S850000x256 : S_.BroadcastsInDim S850000x256 (![] : Fin 0 → Fin S850000x256.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000x1 : Shape := ⟨2, ![800000, 1]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x1, .f32⟩
  | .hbm, ⟨2, _⟩ => ⟨S2x800000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x256, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x256, .f32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S850000x1, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x256, .f32⟩
  | .hbm, ⟨86, _⟩ => ⟨S850000x256, .f32⟩
  | .hbm, ⟨87, _⟩ => ⟨S850000x256, .f32⟩
  | .hbm, ⟨88, _⟩ => ⟨S_, .f32⟩
  | .hbm, ⟨89, _⟩ => ⟨S50000x256, .f32⟩
  | .hbm, ⟨90, _⟩ => ⟨S850000x1, .i32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x256, .f32⟩
  | .hbm, ⟨97, _⟩ => ⟨S50000x256, .f32⟩
  | .hbm, ⟨98, _⟩ => ⟨S50000x128, .f32⟩
  | .hbm, ⟨99, _⟩ => ⟨S850000x1, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x128, .f32⟩
  | .hbm, ⟨109, _⟩ => ⟨S850000x128, .f32⟩
  | .hbm, ⟨110, _⟩ => ⟨S850000x128, .f32⟩
  | .hbm, ⟨111, _⟩ => ⟨S_, .f32⟩
  | .hbm, ⟨112, _⟩ => ⟨S50000x128, .f32⟩
  | .hbm, ⟨113, _⟩ => ⟨S850000x1, .i32⟩
  | .hbm, ⟨114, _⟩ => ⟨S50000x128, .f32⟩
  | .hbm, ⟨115, _⟩ => ⟨S1x128, .f32⟩
  | .hbm, ⟨116, _⟩ => ⟨S50000x128, .f32⟩
  | .hbm, ⟨117, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_c_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The graph-convolution network both programs compute, as functions of whole arrays.

  With N = 50000 nodes and E = 800000 edges, the edge list is extended by one self loop per node:
  src, dst : 850000 words.  deg counts, per node, the edges that END there; dis = deg^(-1/2) where
  deg > 0 (and 0 elsewhere); norm e = dis (src e) * dis (dst e).  One layer maps node features H to
      out i = (sum over the edges e with dst e = i of  norm e * (H W) (src e))  +  b ,
  and the network is three layers with max(., 0) after the first two.

  The two programs differ in how a layer READS row (src e) of H W.  The reference gathers it (negative
  indices wrapped by N once, the start index clamped into the table).  The kernel's program gathers the
  same row and then replaces it by a fill value unless 0 <= index <= N - 1: readRows below.  Everything
  else is operation for operation the same, so each layer is stated ONCE, over the row read as a
  parameter (netOf), and the two networks differ only in that parameter.
-/
import proofs.«403011_j35158602285142_1_alg».proof.Proof.Gen.KernelIdeal
import proofs.«403011_j35158602285142_1_alg».proof.Proof.Gen.ReferenceIdeal

noncomputable section

namespace Cert.Gcn

open Idealize.ShloMosaic Cert.KernelIdeal Cert.KernelIdeal.Gen

variable {F : FTy → Type} [FloatOps F]

/-! ## The edge list -/

/-- Row r of the 2 x E edge array as a vector of E words. -/
def srcRow (ei : IVec S2x800000 32) : IVec S800000 32 :=
  shapeCast S800000 (extractStridedSlice S1x800000 ![0, 0] ei slices_S2x800000_S1x800000_0_0) shapeCasts_S1x800000_S800000
def dstRow (ei : IVec S2x800000 32) : IVec S800000 32 :=
  shapeCast S800000 (extractStridedSlice S1x800000 ![1, 0] ei slices_S2x800000_S1x800000_1_0) shapeCasts_S1x800000_S800000

/-- The node numbers 0 .. N-1: the self loops' two ends. -/
def loops : IVec S50000 32 := iotaInDim S50000 32 0

/-- Sources, then the self loops. -/
def srcOf (ei : IVec S2x800000 32) : IVec S850000 32 :=
  concatenate S850000 0 [⟨S800000, srcRow ei⟩, ⟨S50000, loops⟩] concatenates_S800000_S50000_S850000_d0
/-- Destinations, then the self loops. -/
def dstOf (ei : IVec S2x800000 32) : IVec S850000 32 :=
  concatenate S850000 0 [⟨S800000, dstRow ei⟩, ⟨S50000, loops⟩] concatenates_S800000_S50000_S850000_d0

/-- An index vector with negative entries wrapped once by N (numpy's reading of a negative index). -/
def wrapN (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- The wrapped indices as a column: what a row gather takes as start indices. -/
def startOf (s : IVec S850000 32) : IVec S850000x1 32 :=
  broadcastInDim S850000x1 ![0] bcast_S850000_S850000x1_0 (wrapN s)

/-! ## The symmetric normalisation -/

/-- deg i: the number of extended edges ending at node i, as a float. -/
def degOf (dst : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

/-- dis i = (max (deg i) 1)^(-1/2) where deg i > 0, else 0. -/
def disOf (dst : IVec S850000 32) : FVec F S50000 .f32 :=
  select (cmpf .ogt (degOf (F := F) dst) (broadcastInDim S50000 ![] bcast_S_S50000 (constant S_ .f32 0x00000000#32)))
    (Host.rsqrt (maximumf (degOf (F := F) dst) (broadcastInDim S50000 ![] bcast_S_S50000 (constant S_ .f32 0x3F800000#32))))
    (broadcastInDim S50000 ![] bcast_S_S50000 (id (constant S_ .f32 0x00000000#32)))

/-- norm e = dis (src e) * dis (dst e). -/
def normOf (src dst : IVec S850000 32) : FVec F S850000 .f32 :=
  mulf (Host.gather gather_S50000_S850000x1_S850000_n_0_n_n_0_1_1 (disOf (F := F) dst) (startOf src))
       (Host.gather gather_S50000_S850000x1_S850000_n_0_n_n_0_1_1 (disOf (F := F) dst) (startOf dst))

/-! ## Reading the rows (src e) of a node table -/

/-- Per edge: is the wrapped source index a row number, 0 <= index <= N - 1? -/
def inRange (s : IVec S850000 32) : IVec S850000 1 :=
  Host.reduce IntOp.andi
    (andi (cmpi .sge (startOf s) (broadcastInDim S850000x1 ![] bcast_S_S850000x1 (constantI S_ 32 0#32)))
          (cmpi .sle (startOf s) (broadcastInDim S850000x1 ![0, 1] bcast_S1x1_S850000x1_0_1
            (broadcastInDim S1x1 ![1] bcast_S1_S1x1_1 (constantI S1 32 49999#32)))))
    (constantI S_ 1 1#1) reducesTo_S850000x1_S850000_d1 h_S_

/-- The plain row gather (width 256): row (wrapped, clamped src e) of M. -/
def gatherRows256 (s : IVec S850000 32) (M : FVec F S50000x256 .f32) : FVec F S850000x256 .f32 :=
  Host.gather gather_S50000x256_S850000x1_S850000x256_1_0_n_n_0_1_1256 M (startOf s)
/-- The plain row gather (width 128). -/
def gatherRows128 (s : IVec S850000 32) (M : FVec F S50000x128 .f32) : FVec F S850000x128 .f32 :=
  Host.gather gather_S50000x128_S850000x1_S850000x128_1_0_n_n_0_1_1128 M (startOf s)

/-- The guarded row read (width 256): the gathered row where the index is a row number, a fill value elsewhere. -/
def readRows256 (s : IVec S850000 32) (M : FVec F S50000x256 .f32) : FVec F S850000x256 .f32 :=
  select (broadcastInDim S850000x256 ![0] bcast_S850000_S850000x256_0 (inRange s))
    (gatherRows256 s M)
    (broadcastInDim S850000x256 ![] bcast_S_S850000x256 (constant S_ .f32 0x7FC00000#32))
/-- The guarded row read (width 128). -/
def readRows128 (s : IVec S850000 32) (M : FVec F S50000x128 .f32) : FVec F S850000x128 .f32 :=
  select (broadcastInDim S850000x128 ![0] bcast_S850000_S850000x128_0 (inRange s))
    (gatherRows128 s M)
    (broadcastInDim S850000x128 ![] bcast_S_S850000x128 (constant S_ .f32 0x7FC00000#32))

/-! ## One layer after its product H W: weight the read rows, add them up per destination, add the bias -/

/-- Width 256: G holds, per edge, the row read for it. -/
def aggregate256 (norm : FVec F S850000 .f32) (dst : IVec S850000 32) (G : FVec F S850000x256 .f32) (b : FVec F S256 .f32) :
    FVec F S50000x256 .f32 :=
  addf
    (Host.scatterAdd scatter_S50000x256_S850000x1_S850000x256_1_0_0_1
      (broadcastInDim S50000x256 ![] bcast_S_S50000x256 (constant S_ .f32 0x00000000#32))
      (broadcastInDim S850000x1 ![0] bcast_S850000_S850000x1_0 dst)
      (mulf (broadcastInDim S850000x256 ![0, 1] bcast_S850000x1_S850000x256_0_1
              (broadcastInDim S850000x1 ![0] bcast_S850000_S850000x1_0 norm)) G))
    (broadcastInDim S50000x256 ![0, 1] bcast_S1x256_S50000x256_0_1 (broadcastInDim S1x256 ![1] bcast_S256_S1x256_1 b))

/-- Width 128. -/
def aggregate128 (norm : FVec F S850000 .f32) (dst : IVec S850000 32) (G : FVec F S850000x128 .f32) (b : FVec F S128 .f32) :
    FVec F S50000x128 .f32 :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 dst)
      (mulf (broadcastInDim S850000x128 ![0, 1] bcast_S850000x1_S850000x128_0_1
              (broadcastInDim S850000x1 ![0] bcast_S850000_S850000x1_0 norm)) G))
    (broadcastInDim S50000x128 ![0, 1] bcast_S1x128_S50000x128_0_1 (broadcastInDim S1x128 ![1] bcast_S128_S1x128_1 b))

/-- max(., 0), elementwise. -/
def relu256 (X : FVec F S50000x256 .f32) : FVec F S50000x256 .f32 :=
  maximumf X (broadcastInDim S50000x256 ![] bcast_S_S50000x256 (constant S_ .f32 0x00000000#32))

/-! ## The products H W, whole arrays -/

/-- (H W) i j = sum over k of H i k * W k j, for the two 256-wide layers. -/
def mm256 (H : FVec F S50000x256 .f32) (W : FVec F S256x256 .f32) : FVec F S50000x256 .f32 :=
  Host.dotGeneral (F := F) Cert.ReferenceIdeal.dot_S50000x256_S256x256_S50000x256_1_0_0_1_n_n none H W
/-- The same for the last layer, 256 to 128. -/
def mm128 (H : FVec F S50000x256 .f32) (W : FVec F S256x128 .f32) : FVec F S50000x128 .f32 :=
  Host.dotGeneral (F := F) Cert.ReferenceIdeal.dot_S50000x256_S256x128_S50000x128_1_0_0_1_n_n none H W

/-! ## The network, over the way a layer reads its rows -/

/-- Three layers; rd256 / rd128 say how row (src e) of a product is read. -/
def netOf (rd256 : IVec S850000 32 → FVec F S50000x256 .f32 → FVec F S850000x256 .f32)
    (rd128 : IVec S850000 32 → FVec F S50000x128 .f32 → FVec F S850000x128 .f32)
    (x : FVec F S50000x256 .f32) (ei : IVec S2x800000 32)
    (W1 : FVec F S256x256 .f32) (b1 : FVec F S256 .f32) (W2 : FVec F S256x256 .f32) (b2 : FVec F S256 .f32)
    (W3 : FVec F S256x128 .f32) (b3 : FVec F S128 .f32) : FVec F S50000x128 .f32 :=
  aggregate128 (normOf (F := F) (srcOf ei) (dstOf ei)) (dstOf ei)
    (rd128 (srcOf ei) (mm128 (relu256 (aggregate256 (normOf (F := F) (srcOf ei) (dstOf ei)) (dstOf ei)
      (rd256 (srcOf ei) (mm256 (relu256 (aggregate256 (normOf (F := F) (srcOf ei) (dstOf ei)) (dstOf ei)
        (rd256 (srcOf ei) (mm256 x W1)) b1)) W2)) b2)) W3)) b3

/-! ## The domain -/

/-- Every source of the edge array is a node number: 0 <= src e < N, as the two word comparisons say it. -/
def SrcOk (ei : IVec S2x800000 32) : Prop :=
  ∀ e : S800000.Idx, IntOp.cmpi .sge (srcRow ei e) 0#32 = 1#1 ∧ IntOp.cmpi .slt (srcRow ei e) 50000#32 = 1#1

end Cert.Gcn

end
-- ==== Proof.SrcRange.lean ====
/-
  The domain: every source index is a node number, so the guarded row read is the plain gather.

  The precondition's last conjunct says 0 <= src e < N for the E given edges; the N self loops appended to
  them are the node numbers themselves.  So no extended source index is negative (wrapping by N leaves it
  alone) and each is at most N - 1: the range test is true at every edge, and the select that guards the
  gathered row always takes the gathered row.
-/
import proofs.«403011_j35158602285142_1_alg».proof.Proof.Spec
import proofs.«403011_j35158602285142_1_alg».proof.Proof.Gen.Pre_finite_inputs
import Idealize.ShloMosaic.Lib.StableHlo.Predicate
import Idealize.ShloMosaic.Lib.ReduceAll
import Idealize.ShloMosaic.Lib.Pipeline.Value
import Idealize.ShloMosaic.Lib.ValueIdx

noncomputable section

namespace Cert.Gcn

open Idealize.ShloMosaic Cert.KernelIdeal Cert.KernelIdeal.Gen

variable {F : FTy → Type} [FloatOps F]

/-! ## Words: a signed range test read as a bound on the value -/

/-- A word that is >= 0 as a signed number has its top bit clear: its value is below 2^31. -/
theorem toNat_lt_of_sge_zero (w : BitVec 32) (h : IntOp.cmpi .sge w 0#32 = 1#1) : w.toNat < 2 ^ 31 := by
  unfold IntOp.cmpi at h
  rw [StableHlo.Predicate.ofBool_eq_one_iff] at h
  have h2 : (0#32 : BitVec 32).sle w = true := h
  simp only [BitVec.sle, decide_eq_true_eq] at h2
  have hz : (0#32 : BitVec 32).toInt = 0 := by decide
  rw [hz, BitVec.toInt_eq_toNat_cond] at h2
  have hlt := w.isLt
  split at h2
  · omega
  · omega

/-- 0 <= w < N as signed comparisons puts the value of w below N = 50000. -/
theorem toNat_lt_of_cmp (w : BitVec 32) (h0 : IntOp.cmpi .sge w 0#32 = 1#1) (h1 : IntOp.cmpi .slt w 50000#32 = 1#1) :
    w.toNat < 50000 := by
  have hw := toNat_lt_of_sge_zero w h0
  have hN : (50000#32 : BitVec 32).toNat = 50000 := by decide
  have := (StableHlo.Predicate.slt_iff_toNat hw (by rw [hN]; omega)).1 h1
  omega

/-! ## The precondition's last conjunct, read at one edge -/

/-- The scalar shape has one index. -/
instance subsingletonScalarIdx : Subsingleton Cert.Pre_finite_inputs.S_.Idx := ⟨fun _ _ => funext fun d => d.elim0⟩

/-- The printed precondition, all ones, gives the two comparisons at every given edge. -/
theorem srcOk_of_pre (a0 : FVec F S50000x256 .f32) (a1 : FVec F S800000x1 .f32) (a2 : IVec S2x800000 32)
    (a3 : FVec F S256x256 .f32) (a4 : FVec F S256 .f32) (a5 : FVec F S256x256 .f32) (a6 : FVec F S256 .f32)
    (a7 : FVec F S256x128 .f32) (a8 : FVec F S128 .f32)
    (h : Cert.Pre_finite_inputs.fn (F := F) a0 a1 a2 a3 a4 a5 a6 a7 a8 = fun _ => 1#1) : SrcOk a2 := by
  intro e
  have h0 := congrFun h ValueIdx.ix0
  dsimp only [Cert.Pre_finite_inputs.fn, Cert.Pre_finite_inputs.fn_part1, Cert.Pre_finite_inputs.fn_part2] at h0
  -- the result is the conjunction of nine all-reductions; the last one is the range test on the sources
  have hlast := (IntOp.andi_eq_one.1 h0).2
  -- an all-reduction that is 1 had a 1 at every edge
  have hel := Host.reduce_andi_all _ _ _ _ _ hlast e
  -- at edge e the reduced mask is the and of the two comparisons of the source word with the constants 0 and N
  exact IntOp.andi_eq_one.1 hel

/-! ## The extended source indices are node numbers -/

/-- Every extended source index has value below N: a given edge's by the domain, a self loop's because it is
    the loop's own position among the N loops. -/
theorem srcOf_toNat_lt (ei : IVec S2x800000 32) (h : SrcOk ei) (k : S850000.Idx) : (srcOf ei k).toNat < 50000 := by
  have hk : (k 0).val < 850000 := (k 0).isLt
  by_cases hlt : (k 0).val < 800000
  · -- among the first E positions the concatenation reads the source row
    have e : srcOf ei k = srcRow ei (ValueIdx.ix1 ⟨(k 0).val, hlt⟩) := by
      unfold srcOf
      exact concatenate_pair_apply_left (0 : Fin S850000.rank) (srcRow ei) loops concatenates_S800000_S50000_S850000_d0 k rfl _
        (fun b => match b with | ⟨0, _⟩ => rfl)
    rw [e]
    obtain ⟨h0, h1⟩ := h (ValueIdx.ix1 ⟨(k 0).val, hlt⟩)
    exact toNat_lt_of_cmp _ h0 h1
  · -- past them it reads the loops, E positions earlier
    have hge : 800000 ≤ (k 0).val := Nat.le_of_not_lt hlt
    have hp : (k 0).val - 800000 < 50000 := by omega
    have e : srcOf ei k = loops (ValueIdx.ix1 ⟨(k 0).val - 800000, hp⟩) := by
      unfold srcOf
      refine concatenate_pair_apply_right (0 : Fin S850000.rank) (srcRow ei) loops concatenates_S800000_S50000_S850000_d0 k rfl rfl _
        (fun b hb => absurd (Subsingleton.elim _ _) hb) ?_
      show (k 0).val - 800000 + 800000 = (k 0).val
      omega
    rw [e]
    show (BitVec.ofNat 32 ((k 0).val - 800000)).toNat < 50000
    rw [BitVec.toNat_ofNat]
    omega

/-- So wrapping by N leaves every extended source index alone: none is negative. -/
theorem wrapN_srcOf (ei : IVec S2x800000 32) (h : SrcOk ei) (k : S850000.Idx) : wrapN (srcOf ei) k = srcOf ei k := by
  have hw := srcOf_toNat_lt ei h k
  have hz : (0#32 : BitVec 32).toNat = 0 := rfl
  have hn : ¬ IntOp.cmpi .slt (srcOf ei k) 0#32 = 1#1 := by
    intro hc
    have := (StableHlo.Predicate.slt_iff_toNat (by omega) (by rw [hz]; omega)).1 hc
    omega
  show Scalar.select (IntOp.cmpi .slt (srcOf ei k) 0#32) (IntOp.addi (srcOf ei k) 50000#32) (srcOf ei k) = srcOf ei k
  exact if_neg hn

/-- An entry of the start-index column is an entry of the wrapped index vector. -/
theorem startOf_apply (s : IVec S850000 32) (i : S850000x1.Idx) : ∃ k : S850000.Idx, startOf s i = wrapN s k := ⟨_, rfl⟩

/-! ## The range test is true at every edge -/

/-- A left fold by "and" from 1 over entries that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e1 : IntOp.andi (1#1 : BitVec 1) 1#1 = 1#1 := by decide
    rw [List.foldl_cons, h a List.mem_cons_self, e1]
    exact foldl_andi_one f l (fun n hn => h n (List.mem_cons_of_mem _ hn))

/-- Every extended source index passes the range test. -/
theorem inRange_srcOf (ei : IVec S2x800000 32) (h : SrcOk ei) : inRange (srcOf ei) = fun _ => 1#1 := by
  funext j
  unfold inRange
  rw [Host.reduce_eq_foldl]
  refine foldl_andi_one _ _ (fun i _ => ?_)
  -- one entry of the reduced mask: the and of the two comparisons of the start index with 0 and with N - 1
  show IntOp.andi (IntOp.cmpi .sge (startOf (srcOf ei) i) 0#32) (IntOp.cmpi .sle (startOf (srcOf ei) i) 49999#32) = 1#1
  obtain ⟨k, hk⟩ := startOf_apply (srcOf ei) i
  rw [hk, wrapN_srcOf ei h k]
  have hw := srcOf_toNat_lt ei h k
  have hz : (0#32 : BitVec 32).toNat = 0 := rfl
  have hm : (49999#32 : BitVec 32).toNat = 49999 := by decide
  have h1 : IntOp.cmpi .sge (srcOf ei k) 0#32 = 1#1 :=
    (StableHlo.Predicate.sge_iff_toNat (by omega) (by rw [hz]; omega)).2 (by rw [hz]; omega)
  have h2 : IntOp.cmpi .sle (srcOf ei k) 49999#32 = 1#1 :=
    (StableHlo.Predicate.sle_iff_toNat (by omega) (by rw [hm]; omega)).2 (by rw [hm]; omega)
  exact IntOp.andi_eq_one.2 ⟨h1, h2⟩

/-! ## The guarded read is the gather -/

/-- So the guarded read is the gather (width 256) ... -/
theorem readRows256_eq (ei : IVec S2x800000 32) (h : SrcOk ei) (M : FVec F S50000x256 .f32) :
    readRows256 (srcOf ei) M = gatherRows256 (srcOf ei) M := by
  funext j
  unfold readRows256
  rw [inRange_srcOf ei h]
  -- the mask, all ones, laid along the rows is 1 at every entry: the select takes its first branch
  show Scalar.select (1#1 : BitVec 1) (gatherRows256 (srcOf ei) M j) _ = gatherRows256 (srcOf ei) M j
  exact ValueIdx.select_one _ _

/-- ... and width 128. -/
theorem readRows128_eq (ei : IVec S2x800000 32) (h : SrcOk ei) (M : FVec F S50000x128 .f32) :
    readRows128 (srcOf ei) M = gatherRows128 (srcOf ei) M := by
  funext j
  unfold readRows128
  rw [inRange_srcOf ei h]
  show Scalar.select (1#1 : BitVec 1) (gatherRows128 (srcOf ei) M j) _ = gatherRows128 (srcOf ei) M j
  exact ValueIdx.select_one _ _

end Cert.Gcn

end
-- ==== Proof.HostSteps.lean ====
/-
  The kernel program's host stretches, one at a time, over ANY buffer contents V.

  Each stretch is a short line of host operations; its effect on the buffers that matter is read off the
  fold of its operations over V.  Before the first launch: the extended edge list, the degree test and the
  inverse square root (from the edge array), the select between them (dis), and the two gathers of dis
  multiplied (norm).  After each launch: the weights as a column; the guarded read of the rows (src e) of
  the launch's output; the weighted rows added up per destination plus the bias; and max(., 0).
  A buffer a stretch does not write keeps its contents.
-/
import proofs.«403011_j35158602285142_1_alg».proof.Proof.Spec
import proofs.«403011_j35158602285142_1_alg».proof.Proof.Gen.KernelIdeal.Launch
import Idealize.ShloMosaic.Lib.StableHlo.Run

set_option maxRecDepth 16384
set_option Elab.async false

noncomputable section

namespace Cert.Gcn.HostSteps

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

/-! ## A buffer that no operation of a stretch writes keeps its contents

  Each operation of a literal stretch writes one buffer; a reference different from all of those is not in
  any operation's write set, so the fold leaves it alone. -/

/-- Closes `after ops V b = V b` for the literal stretch named, when b is none of the buffers it writes. -/
macro "unwritten_by " ops:ident : tactic => `(tactic|
  exact StableHlo.after_of_forall_not_mem _ _ (List.forall_iff_forall_mem.mp (by
    simp only [$ops:ident, List.take_succ_cons, List.take_zero, List.drop_succ_cons, List.drop_zero, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The range test on a column of start indices -/

/-- Per edge: 0 <= index <= N - 1, for start indices already wrapped and laid out as a column. -/
def inRangeCol (i5 : IVec S850000x1 32) : IVec S850000 1 :=
  Host.reduce IntOp.andi
    (andi (cmpi .sge i5 (broadcastInDim S850000x1 ![] bcast_S_S850000x1 (constantI S_ 32 0#32)))
          (cmpi .sle i5 (broadcastInDim S850000x1 ![0, 1] bcast_S1x1_S850000x1_0_1
            (broadcastInDim S1x1 ![1] bcast_S1_S1x1_1 (constantI S1 32 49999#32)))))
    (constantI S_ 1 1#1) reducesTo_S850000x1_S850000_d1 h_S_

theorem inRange_eq (s : IVec S850000 32) : inRange s = inRangeCol (startOf s) := rfl

/-! ## Adding up with the weights already a column -/

/-- aggregate256 with the per-edge weights given as a column (what the program holds in a buffer). -/
def aggregateCol256 (nb : FVec F S850000x1 .f32) (dst : IVec S850000 32) (G : FVec F S850000x256 .f32) (b : FVec F S256 .f32) :
    FVec F S50000x256 .f32 :=
  addf
    (Host.scatterAdd scatter_S50000x256_S850000x1_S850000x256_1_0_0_1
      (broadcastInDim S50000x256 ![] bcast_S_S50000x256 (constant S_ .f32 0x00000000#32))
      (broadcastInDim S850000x1 ![0] bcast_S850000_S850000x1_0 dst)
      (mulf (broadcastInDim S850000x256 ![0, 1] bcast_S850000x1_S850000x256_0_1 nb) G))
    (broadcastInDim S50000x256 ![0, 1] bcast_S1x256_S50000x256_0_1 (broadcastInDim S1x256 ![1] bcast_S256_S1x256_1 b))

/-- The same at width 128. -/
def aggregateCol128 (nb : FVec F S850000x1 .f32) (dst : IVec S850000 32) (G : FVec F S850000x128 .f32) (b : FVec F S128 .f32) :
    FVec F S50000x128 .f32 :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 dst)
      (mulf (broadcastInDim S850000x128 ![0, 1] bcast_S850000x1_S850000x128_0_1 nb) G))
    (broadcastInDim S50000x128 ![0, 1] bcast_S1x128_S50000x128_0_1 (broadcastInDim S1x128 ![1] bcast_S128_S1x128_1 b))

theorem aggregate256_eq (norm : FVec F S850000 .f32) (dst : IVec S850000 32) (G : FVec F S850000x256 .f32) (b : FVec F S256 .f32) :
    aggregate256 norm dst G b = aggregateCol256 (broadcastInDim S850000x1 ![0] bcast_S850000_S850000x1_0 norm) dst G b := rfl

theorem aggregate128_eq (norm : FVec F S850000 .f32) (dst : IVec S850000 32) (G : FVec F S850000x128 .f32) (b : FVec F S128 .f32) :
    aggregate128 norm dst G b = aggregateCol128 (broadcastInDim S850000x1 ![0] bcast_S850000_S850000x1_0 norm) dst G b := rfl

/-! ## Before the first launch -/

set_option maxHeartbeats 4000000 in
/-- Is deg > 0, per node. -/
theorem degPos0 :
    after (hostOps0 (F := F)) V (Proc.devRef .tc main_v12)
      = cmpf .ogt (degOf (F := F) (dstOf (V (Proc.devRef .tc main_arg2))))
          (broadcastInDim S50000 ![] bcast_S_S50000 (constant S_ .f32 0x00000000#32)) := by
  simp only [hostOps0]
  after_results_simp <;> rfl

set_option maxHeartbeats 4000000 in
/-- (max deg 1)^(-1/2), per node. -/
theorem degRsqrt0 :
    after (hostOps0 (F := F)) V (Proc.devRef .tc main_v15)
      = Host.rsqrt (maximumf (degOf (F := F) (dstOf (V (Proc.devRef .tc main_arg2))))
          (broadcastInDim S50000 ![] bcast_S_S50000 (constant S_ .f32 0x3F800000#32))) := by
  simp only [hostOps0]
  after_results_simp <;> rfl

set_option maxHeartbeats 4000000 in
/-- The zero that dis takes where deg = 0. -/
theorem zero0 :
    after (hostOps0 (F := F)) V (Proc.devRef .tc main_cst_3) = constant S_ .f32 0x00000000#32 := by
  simp only [hostOps0]
  after_results_simp <;> rfl

set_option maxHeartbeats 4000000 in
theorem src0 : after (hostOps0 (F := F)) V (Proc.devRef .tc main_v3) = srcOf (V (Proc.devRef .tc main_arg2)) := by
  simp only [hostOps0]
  after_results_simp <;> rfl

set_option maxHeartbeats 4000000 in
theorem dst0 : after (hostOps0 (F := F)) V (Proc.devRef .tc main_v6) = dstOf (V (Proc.devRef .tc main_arg2)) := by
  simp only [hostOps0]
  after_results_simp <;> rfl

set_option maxHeartbeats 4000000 in
/-- dis: the select between the inverse square root and zero. -/
theorem dis0_1 :
    after (hostOps0_1 (F := F)) V (Proc.devRef .tc main_v16)
      = select (V (Proc.devRef .tc main_v12)) (V (Proc.devRef .tc main_v15))
          (broadcastInDim S50000 ![] bcast_S_S50000 (id (V (Proc.devRef .tc main_cst_3)))) := by
  simp only [hostOps0_1]
  after_results_simp <;> (try simp only [TRef.ofBuf, TRef.toBuf, cast_cast, cast_eq]) <;> (try rfl)

/-- The arguments, and the edge list once made, through the three stretches before the first launch. -/
theorem keep0 (b : Ref sig .tc)
    (hb : b ∈ [main_arg0, main_arg2, main_arg3, main_arg4, main_arg5, main_arg6, main_arg7, main_arg8]) :
    after (hostOps0 (F := F)) V (Proc.devRef .tc b) = V (Proc.devRef .tc b) := by
  simp only [List.mem_cons, List.mem_nil_iff, or_false] at hb
  rcases hb with rfl | rfl | rfl | rfl | rfl | rfl | rfl | rfl <;> unwritten_by hostOps0

theorem keep0_1 (b : Ref sig .tc)
    (hb : b ∈ [main_v3, main_v6, main_arg0, main_arg2, main_arg3, main_arg4, main_arg5, main_arg6, main_arg7, main_arg8]) :
    after (hostOps0_1 (F := F)) V (Proc.devRef .tc b) = V (Proc.devRef .tc b) := by
  simp only [List.mem_cons, List.mem_nil_iff, or_false] at hb
  rcases hb with rfl | rfl | rfl | rfl | rfl | rfl | rfl | rfl | rfl | rfl <;> unwritten_by hostOps0_1

theorem keep0_2 (b : Ref sig .tc)
    (hb : b ∈ [main_v3, main_v6, main_arg0, main_arg2, main_arg3, main_arg4, main_arg5, main_arg6, main_arg7, main_arg8]) :
    after (hostOps0_2 (F := F)) V (Proc.devRef .tc b) = V (Proc.devRef .tc b) := by
  simp only [List.mem_cons, List.mem_nil_iff, or_false] at hb
  rcases hb with rfl | rfl | rfl | rfl | rfl | rfl | rfl | rfl | rfl | rfl <;> unwritten_by hostOps0_2

set_option maxHeartbeats 4000000 in
/-- norm: dis gathered at the sources times dis gathered at the destinations. -/
theorem norm0_2 :
    after (hostOps0_2 (F := F)) V (Proc.devRef .tc main_v31)
      = mulf (Host.gather gather_S50000_S850000x1_S850000_n_0_n_n_0_1_1 (V (Proc.devRef .tc main_v16)) (startOf (V (Proc.devRef .tc main_v3))))
             (Host.gather gather_S50000_S850000x1_S850000_n_0_n_n_0_1_1 (V (Proc.devRef .tc main_v16)) (startOf (V (Proc.devRef .tc main_v6)))) := by
  simp only [hostOps0_2]
  after_results_simp <;> rfl

/-! ## max(., 0) after the first two layers -/

set_option maxHeartbeats 4000000 in
/-- After the first layer. -/
theorem relu1 :
    after (hostOps1_3 (F := F)) V (Proc.devRef .tc main_v43)
      = relu256 (F := F) (V (Proc.devRef .tc main_v42)) := by
  simp only [hostOps1_3]
  after_results_simp <;> (try simp only [TRef.ofBuf, TRef.toBuf, cast_cast, cast_eq]) <;> (try rfl)

set_option maxHeartbeats 4000000 in
/-- After the second layer. -/
theorem relu2 :
    after (hostOps2_3 (F := F)) V (Proc.devRef .tc main_v55)
      = relu256 (F := F) (V (Proc.devRef .tc main_v54)) := by
  simp only [hostOps2_3]
  after_results_simp <;> (try simp only [TRef.ofBuf, TRef.toBuf, cast_cast, cast_eq]) <;> (try rfl)

/-- What max(., 0) after the first layer leaves alone. -/
theorem keep1_3 (b : Ref sig .tc) (hb : b ∈ [main_v3, main_v6, main_v31, main_arg5, main_arg6, main_arg7, main_arg8]) :
    after (hostOps1_3 (F := F)) V (Proc.devRef .tc b) = V (Proc.devRef .tc b) := by
  simp only [List.mem_cons, List.mem_nil_iff, or_false] at hb
  rcases hb with rfl | rfl | rfl | rfl | rfl | rfl | rfl <;> unwritten_by hostOps1_3

/-- What max(., 0) after the second layer leaves alone. -/
theorem keep2_3 (b : Ref sig .tc) (hb : b ∈ [main_v3, main_v6, main_v31, main_arg7, main_arg8]) :
    after (hostOps2_3 (F := F)) V (Proc.devRef .tc b) = V (Proc.devRef .tc b) := by
  simp only [List.mem_cons, List.mem_nil_iff, or_false] at hb
  rcases hb with rfl | rfl | rfl | rfl | rfl <;> unwritten_by hostOps2_3

end Cert.Gcn.HostSteps

end
-- ==== Proof.HostLayer1.lean ====
/-
  The stretch after the first launch, over any buffer contents V: the weights as a column; the weighted rows added up per destination plus the bias; and
  what the three short lines leave alone.
-/
import proofs.«403011_j35158602285142_1_alg».proof.Proof.HostSteps

set_option maxRecDepth 16384
set_option Elab.async false

noncomputable section

namespace Cert.Gcn.HostSteps

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

set_option maxHeartbeats 4000000 in
/-- The weights as a column. -/
theorem col1 :
    after (hostOps1 (F := F)) V (Proc.devRef .tc main_v33)
      = broadcastInDim S850000x1 ![0] bcast_S850000_S850000x1_0 (V (Proc.devRef .tc main_v31)) := by
  simp only [hostOps1]
  after_results_simp <;> (try rfl)

/-- That one line writes nothing else. -/
theorem keep1 (b : Ref sig .tc)
    (hb : b ∈ [main_v32, main_arg4, main_v3, main_v6, main_v31, main_arg5, main_arg6, main_arg7, main_arg8]) :
    after (hostOps1 (F := F)) V (Proc.devRef .tc b) = V (Proc.devRef .tc b) := by
  simp only [List.mem_cons, List.mem_nil_iff, or_false] at hb
  rcases hb with rfl | rfl | rfl | rfl | rfl | rfl | rfl | rfl | rfl <;> unwritten_by hostOps1

/-- The guarded read writes none of the column, the edge list, the weights, the biases. -/
theorem keep1_1 (b : Ref sig .tc)
    (hb : b ∈ [main_v33, main_arg4, main_v3, main_v6, main_v31, main_arg5, main_arg6, main_arg7, main_arg8]) :
    after (hostOps1_1 (F := F)) V (Proc.devRef .tc b) = V (Proc.devRef .tc b) := by
  simp only [List.mem_cons, List.mem_nil_iff, or_false] at hb
  rcases hb with rfl | rfl | rfl | rfl | rfl | rfl | rfl | rfl | rfl <;> unwritten_by hostOps1_1

set_option maxHeartbeats 4000000 in
/-- The weighted rows added up per destination, plus the bias. -/
theorem agg1 :
    after (hostOps1_2 (F := F)) V (Proc.devRef .tc main_v42)
      = aggregateCol256 (V (Proc.devRef .tc main_v33)) (V (Proc.devRef .tc main_v6))
          (V (Proc.devRef .tc main_v34)) (V (Proc.devRef .tc main_arg4)) := by
  simp only [hostOps1_2]
  after_results_simp <;> rfl

/-- Nor does the adding up. -/
theorem keep1_2 (b : Ref sig .tc) (hb : b ∈ [main_v3, main_v6, main_v31, main_arg5, main_arg6, main_arg7, main_arg8]) :
    after (hostOps1_2 (F := F)) V (Proc.devRef .tc b) = V (Proc.devRef .tc b) := by
  simp only [List.mem_cons, List.mem_nil_iff, or_false] at hb
  rcases hb with rfl | rfl | rfl | rfl | rfl | rfl | rfl <;> unwritten_by hostOps1_2

end Cert.Gcn.HostSteps

end
-- ==== Proof.HostLayer2.lean ====
/-
  The stretch after the second launch, over any buffer contents V: the weights as a column; the weighted rows added up per destination plus the bias; and
  what the three short lines leave alone.
-/
import proofs.«403011_j35158602285142_1_alg».proof.Proof.HostSteps

set_option maxRecDepth 16384
set_option Elab.async false

noncomputable section

namespace Cert.Gcn.HostSteps

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

set_option maxHeartbeats 4000000 in
/-- The weights as a column. -/
theorem col2 :
    after (hostOps2 (F := F)) V (Proc.devRef .tc main_v45)
      = broadcastInDim S850000x1 ![0] bcast_S850000_S850000x1_0 (V (Proc.devRef .tc main_v31)) := by
  simp only [hostOps2]
  after_results_simp <;> (try rfl)

/-- That one line writes nothing else. -/
theorem keep2 (b : Ref sig .tc)
    (hb : b ∈ [main_v44, main_arg6, main_v3, main_v6, main_v31, main_arg5, main_arg6, main_arg7, main_arg8]) :
    after (hostOps2 (F := F)) V (Proc.devRef .tc b) = V (Proc.devRef .tc b) := by
  simp only [List.mem_cons, List.mem_nil_iff, or_false] at hb
  rcases hb with rfl | rfl | rfl | rfl | rfl | rfl | rfl | rfl | rfl <;> unwritten_by hostOps2

/-- The guarded read writes none of the column, the edge list, the weights, the biases. -/
theorem keep2_1 (b : Ref sig .tc)
    (hb : b ∈ [main_v45, main_arg6, main_v3, main_v6, main_v31, main_arg5, main_arg6, main_arg7, main_arg8]) :
    after (hostOps2_1 (F := F)) V (Proc.devRef .tc b) = V (Proc.devRef .tc b) := by
  simp only [List.mem_cons, List.mem_nil_iff, or_false] at hb
  rcases hb with rfl | rfl | rfl | rfl | rfl | rfl | rfl | rfl | rfl <;> unwritten_by hostOps2_1

set_option maxHeartbeats 4000000 in
/-- The weighted rows added up per destination, plus the bias. -/
theorem agg2 :
    after (hostOps2_2 (F := F)) V (Proc.devRef .tc main_v54)
      = aggregateCol256 (V (Proc.devRef .tc main_v45)) (V (Proc.devRef .tc main_v6))
          (V (Proc.devRef .tc main_v46)) (V (Proc.devRef .tc main_arg6)) := by
  simp only [hostOps2_2]
  after_results_simp <;> rfl

/-- Nor does the adding up. -/
theorem keep2_2 (b : Ref sig .tc) (hb : b ∈ [main_v3, main_v6, main_v31, main_arg5, main_arg6, main_arg7, main_arg8]) :
    after (hostOps2_2 (F := F)) V (Proc.devRef .tc b) = V (Proc.devRef .tc b) := by
  simp only [List.mem_cons, List.mem_nil_iff, or_false] at hb
  rcases hb with rfl | rfl | rfl | rfl | rfl | rfl | rfl <;> unwritten_by hostOps2_2

end Cert.Gcn.HostSteps

end
-- ==== Proof.HostLayer3.lean ====
/-
  The stretch after the third launch, over any buffer contents V: the weights as a column; the weighted rows added up per destination plus the bias; and
  what the three short lines leave alone.
-/
import proofs.«403011_j35158602285142_1_alg».proof.Proof.HostSteps

set_option maxRecDepth 16384
set_option Elab.async false

noncomputable section

namespace Cert.Gcn.HostSteps

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

set_option maxHeartbeats 4000000 in
/-- The weights as a column. -/
theorem col3 :
    after (hostOps3 (F := F)) V (Proc.devRef .tc main_v57)
      = broadcastInDim S850000x1 ![0] bcast_S850000_S850000x1_0 (V (Proc.devRef .tc main_v31)) := by
  simp only [hostOps3]
  after_results_simp <;> (try rfl)

/-- That one line writes nothing else. -/
theorem keep3 (b : Ref sig .tc)
    (hb : b ∈ [main_v56, main_arg8, main_v3, main_v6, main_v31, main_arg5, main_arg6, main_arg7, main_arg8]) :
    after (hostOps3 (F := F)) V (Proc.devRef .tc b) = V (Proc.devRef .tc b) := by
  simp only [List.mem_cons, List.mem_nil_iff, or_false] at hb
  rcases hb with rfl | rfl | rfl | rfl | rfl | rfl | rfl | rfl | rfl <;> unwritten_by hostOps3

/-- The guarded read writes none of the column, the edge list, the weights, the biases. -/
theorem keep3_1 (b : Ref sig .tc)
    (hb : b ∈ [main_v57, main_arg8, main_v3, main_v6, main_v31, main_arg5, main_arg6, main_arg7, main_arg8]) :
    after (hostOps3_1 (F := F)) V (Proc.devRef .tc b) = V (Proc.devRef .tc b) := by
  simp only [List.mem_cons, List.mem_nil_iff, or_false] at hb
  rcases hb with rfl | rfl | rfl | rfl | rfl | rfl | rfl | rfl | rfl <;> unwritten_by hostOps3_1

set_option maxHeartbeats 4000000 in
/-- The weighted rows added up per destination, plus the bias. -/
theorem agg3 :
    after (hostOps3_2 (F := F)) V (Proc.devRef .tc main_v66)
      = aggregateCol128 (V (Proc.devRef .tc main_v57)) (V (Proc.devRef .tc main_v6))
          (V (Proc.devRef .tc main_v58)) (V (Proc.devRef .tc main_arg8)) := by
  simp only [hostOps3_2]
  after_results_simp <;> rfl

/-- Nor does the adding up. -/
theorem keep3_2 (b : Ref sig .tc) (hb : b ∈ [main_v3, main_v6, main_v31, main_arg5, main_arg6, main_arg7, main_arg8]) :
    after (hostOps3_2 (F := F)) V (Proc.devRef .tc b) = V (Proc.devRef .tc b) := by
  simp only [List.mem_cons, List.mem_nil_iff, or_false] at hb
  rcases hb with rfl | rfl | rfl | rfl | rfl | rfl | rfl <;> unwritten_by hostOps3_2

end Cert.Gcn.HostSteps

end
-- ==== Proof.HostTake1.lean ====
/-
  The guarded read after the first launch, over any buffer contents V.

  The line of 23 operations falls into three parts: the first eight wrap the source indices by N and lay
  them out as a column; the next ten test 0 <= index <= N - 1 on that column; the last five gather the rows
  of the launch's output at the column and select, per edge, the gathered row or the fill value.  Each part
  is read off its own short fold, and the three are joined: the whole line is readRows256 of the sources
  and that output.
-/
import proofs.«403011_j35158602285142_1_alg».proof.Proof.HostSteps
import Idealize.ShloMosaic.Lib.Pipeline.Frame

set_option maxRecDepth 16384
set_option Elab.async false

noncomputable section

namespace Cert.Gcn.HostSteps

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

/-- The line is its first eight, next ten and last five operations. -/
theorem takeSplit1 :
    (hostOps1_1 (F := F))
      = ((hostOps1_1 (F := F)).take 8 ++ ((hostOps1_1 (F := F)).drop 8).take 10) ++ (hostOps1_1 (F := F)).drop 18 := rfl

set_option maxHeartbeats 4000000 in
/-- The wrapped source indices as a column. -/
theorem takeIdx1 :
    after ((hostOps1_1 (F := F)).take 8) V (Proc.devRef .tc main_call1_v5) = startOf (V (Proc.devRef .tc main_v3)) := by
  simp only [hostOps1_1, List.take_succ_cons, List.take_zero]
  after_results_simp <;> (try simp only [TRef.ofBuf, TRef.toBuf, cast_cast, cast_eq]) <;> (try rfl)

/-- Those eight do not write the launch's output. -/
theorem takeIdxKeep1 (b : Ref sig .tc) (hb : b ∈ [main_v32]) :
    after ((hostOps1_1 (F := F)).take 8) V (Proc.devRef .tc b) = V (Proc.devRef .tc b) := by
  simp only [List.mem_cons, List.mem_nil_iff, or_false] at hb
  subst hb
  unwritten_by hostOps1_1

set_option maxHeartbeats 4000000 in
/-- The range test on the column. -/
theorem takeMask1 :
    after (((hostOps1_1 (F := F)).drop 8).take 10) V (Proc.devRef .tc main_call1_v12)
      = inRangeCol (V (Proc.devRef .tc main_call1_v5)) := by
  simp only [hostOps1_1, List.drop_succ_cons, List.drop_zero, List.take_succ_cons, List.take_zero]
  after_results_simp <;> (try simp only [TRef.ofBuf, TRef.toBuf, cast_cast, cast_eq]) <;> (try rfl)

/-- The test writes neither the column nor the launch's output. -/
theorem takeMaskKeep1 (b : Ref sig .tc) (hb : b ∈ [main_call1_v5, main_v32]) :
    after (((hostOps1_1 (F := F)).drop 8).take 10) V (Proc.devRef .tc b) = V (Proc.devRef .tc b) := by
  simp only [List.mem_cons, List.mem_nil_iff, or_false] at hb
  rcases hb with rfl | rfl <;> unwritten_by hostOps1_1

set_option maxHeartbeats 4000000 in
/-- Gather at the column, then the gathered row or the fill value by the test. -/
theorem takeSel1 :
    after ((hostOps1_1 (F := F)).drop 18) V (Proc.devRef .tc main_v34)
      = select (broadcastInDim S850000x256 ![0] bcast_S850000_S850000x256_0 (V (Proc.devRef .tc main_call1_v12)))
          (Host.gather gather_S50000x256_S850000x1_S850000x256_1_0_n_n_0_1_1256 (V (Proc.devRef .tc main_v32))
            (V (Proc.devRef .tc main_call1_v5)))
          (broadcastInDim S850000x256 ![] bcast_S_S850000x256 (constant S_ .f32 0x7FC00000#32)) := by
  simp only [hostOps1_1, List.drop_succ_cons, List.drop_zero]
  after_results_simp <;> (try simp only [TRef.ofBuf, TRef.toBuf, cast_cast, cast_eq]) <;> (try rfl)

/-- The guarded read of the rows (src e) of the first launch's output. -/
theorem take1 :
    after (hostOps1_1 (F := F)) V (Proc.devRef .tc main_v34)
      = readRows256 (F := F) (V (Proc.devRef .tc main_v3)) (V (Proc.devRef .tc main_v32)) := by
  rw [takeSplit1, Idealize.ShloMosaic.StableHlo.after_append, Idealize.ShloMosaic.StableHlo.after_append, takeSel1, takeMask1,
    takeMaskKeep1 _ main_call1_v5 (by decide), takeMaskKeep1 _ main_v32 (by decide), takeIdx1,
    takeIdxKeep1 _ main_v32 (by decide)]
  rfl

end Cert.Gcn.HostSteps

end
-- ==== Proof.HostTake2.lean ====
/-
  The guarded read after the second launch, over any buffer contents V.

  The line of 23 operations falls into three parts: the first eight wrap the source indices by N and lay
  them out as a column; the next ten test 0 <= index <= N - 1 on that column; the last five gather the rows
  of the launch's output at the column and select, per edge, the gathered row or the fill value.  Each part
  is read off its own short fold, and the three are joined: the whole line is readRows256 of the sources
  and that output.
-/
import proofs.«403011_j35158602285142_1_alg».proof.Proof.HostSteps
import Idealize.ShloMosaic.Lib.Pipeline.Frame

set_option maxRecDepth 16384
set_option Elab.async false

noncomputable section

namespace Cert.Gcn.HostSteps

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

/-- The line is its first eight, next ten and last five operations. -/
theorem takeSplit2 :
    (hostOps2_1 (F := F))
      = ((hostOps2_1 (F := F)).take 8 ++ ((hostOps2_1 (F := F)).drop 8).take 10) ++ (hostOps2_1 (F := F)).drop 18 := rfl

set_option maxHeartbeats 4000000 in
/-- The wrapped source indices as a column. -/
theorem takeIdx2 :
    after ((hostOps2_1 (F := F)).take 8) V (Proc.devRef .tc main_call3_v5) = startOf (V (Proc.devRef .tc main_v3)) := by
  simp only [hostOps2_1, List.take_succ_cons, List.take_zero]
  after_results_simp <;> (try simp only [TRef.ofBuf, TRef.toBuf, cast_cast, cast_eq]) <;> (try rfl)

/-- Those eight do not write the launch's output. -/
theorem takeIdxKeep2 (b : Ref sig .tc) (hb : b ∈ [main_v44]) :
    after ((hostOps2_1 (F := F)).take 8) V (Proc.devRef .tc b) = V (Proc.devRef .tc b) := by
  simp only [List.mem_cons, List.mem_nil_iff, or_false] at hb
  subst hb
  unwritten_by hostOps2_1

set_option maxHeartbeats 4000000 in
/-- The range test on the column. -/
theorem takeMask2 :
    after (((hostOps2_1 (F := F)).drop 8).take 10) V (Proc.devRef .tc main_call3_v12)
      = inRangeCol (V (Proc.devRef .tc main_call3_v5)) := by
  simp only [hostOps2_1, List.drop_succ_cons, List.drop_zero, List.take_succ_cons, List.take_zero]
  after_results_simp <;> (try simp only [TRef.ofBuf, TRef.toBuf, cast_cast, cast_eq]) <;> (try rfl)

/-- The test writes neither the column nor the launch's output. -/
theorem takeMaskKeep2 (b : Ref sig .tc) (hb : b ∈ [main_call3_v5, main_v44]) :
    after (((hostOps2_1 (F := F)).drop 8).take 10) V (Proc.devRef .tc b) = V (Proc.devRef .tc b) := by
  simp only [List.mem_cons, List.mem_nil_iff, or_false] at hb
  rcases hb with rfl | rfl <;> unwritten_by hostOps2_1

set_option maxHeartbeats 4000000 in
/-- Gather at the column, then the gathered row or the fill value by the test. -/
theorem takeSel2 :
    after ((hostOps2_1 (F := F)).drop 18) V (Proc.devRef .tc main_v46)
      = select (broadcastInDim S850000x256 ![0] bcast_S850000_S850000x256_0 (V (Proc.devRef .tc main_call3_v12)))
          (Host.gather gather_S50000x256_S850000x1_S850000x256_1_0_n_n_0_1_1256 (V (Proc.devRef .tc main_v44))
            (V (Proc.devRef .tc main_call3_v5)))
          (broadcastInDim S850000x256 ![] bcast_S_S850000x256 (constant S_ .f32 0x7FC00000#32)) := by
  simp only [hostOps2_1, List.drop_succ_cons, List.drop_zero]
  after_results_simp <;> (try simp only [TRef.ofBuf, TRef.toBuf, cast_cast, cast_eq]) <;> (try rfl)

/-- The guarded read of the rows (src e) of the second launch's output. -/
theorem take2 :
    after (hostOps2_1 (F := F)) V (Proc.devRef .tc main_v46)
      = readRows256 (F := F) (V (Proc.devRef .tc main_v3)) (V (Proc.devRef .tc main_v44)) := by
  rw [takeSplit2, Idealize.ShloMosaic.StableHlo.after_append, Idealize.ShloMosaic.StableHlo.after_append, takeSel2, takeMask2,
    takeMaskKeep2 _ main_call3_v5 (by decide), takeMaskKeep2 _ main_v44 (by decide), takeIdx2,
    takeIdxKeep2 _ main_v44 (by decide)]
  rfl

end Cert.Gcn.HostSteps

end
-- ==== Proof.HostTake3.lean ====
/-
  The guarded read after the third launch, over any buffer contents V.

  The line of 23 operations falls into three parts: the first eight wrap the source indices by N and lay
  them out as a column; the next ten test 0 <= index <= N - 1 on that column; the last five gather the rows
  of the launch's output at the column and select, per edge, the gathered row or the fill value.  Each part
  is read off its own short fold, and the three are joined: the whole line is readRows128 of the sources
  and that output.
-/
import proofs.«403011_j35158602285142_1_alg».proof.Proof.HostSteps
import Idealize.ShloMosaic.Lib.Pipeline.Frame

set_option maxRecDepth 16384
set_option Elab.async false

noncomputable section

namespace Cert.Gcn.HostSteps

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

/-- The line is its first eight, next ten and last five operations. -/
theorem takeSplit3 :
    (hostOps3_1 (F := F))
      = ((hostOps3_1 (F := F)).take 8 ++ ((hostOps3_1 (F := F)).drop 8).take 10) ++ (hostOps3_1 (F := F)).drop 18 := rfl

set_option maxHeartbeats 4000000 in
/-- The wrapped source indices as a column. -/
theorem takeIdx3 :
    after ((hostOps3_1 (F := F)).take 8) V (Proc.devRef .tc main_call5_v5) = startOf (V (Proc.devRef .tc main_v3)) := by
  simp only [hostOps3_1, List.take_succ_cons, List.take_zero]
  after_results_simp <;> (try simp only [TRef.ofBuf, TRef.toBuf, cast_cast, cast_eq]) <;> (try rfl)

/-- Those eight do not write the launch's output. -/
theorem takeIdxKeep3 (b : Ref sig .tc) (hb : b ∈ [main_v56]) :
    after ((hostOps3_1 (F := F)).take 8) V (Proc.devRef .tc b) = V (Proc.devRef .tc b) := by
  simp only [List.mem_cons, List.mem_nil_iff, or_false] at hb
  subst hb
  unwritten_by hostOps3_1

set_option maxHeartbeats 4000000 in
/-- The range test on the column. -/
theorem takeMask3 :
    after (((hostOps3_1 (F := F)).drop 8).take 10) V (Proc.devRef .tc main_call5_v12)
      = inRangeCol (V (Proc.devRef .tc main_call5_v5)) := by
  simp only [hostOps3_1, List.drop_succ_cons, List.drop_zero, List.take_succ_cons, List.take_zero]
  after_results_simp <;> (try simp only [TRef.ofBuf, TRef.toBuf, cast_cast, cast_eq]) <;> (try rfl)

/-- The test writes neither the column nor the launch's output. -/
theorem takeMaskKeep3 (b : Ref sig .tc) (hb : b ∈ [main_call5_v5, main_v56]) :
    after (((hostOps3_1 (F := F)).drop 8).take 10) V (Proc.devRef .tc b) = V (Proc.devRef .tc b) := by
  simp only [List.mem_cons, List.mem_nil_iff, or_false] at hb
  rcases hb with rfl | rfl <;> unwritten_by hostOps3_1

set_option maxHeartbeats 4000000 in
/-- Gather at the column, then the gathered row or the fill value by the test. -/
theorem takeSel3 :
    after ((hostOps3_1 (F := F)).drop 18) V (Proc.devRef .tc main_v58)
      = select (broadcastInDim S850000x128 ![0] bcast_S850000_S850000x128_0 (V (Proc.devRef .tc main_call5_v12)))
          (Host.gather gather_S50000x128_S850000x1_S850000x128_1_0_n_n_0_1_1128 (V (Proc.devRef .tc main_v56))
            (V (Proc.devRef .tc main_call5_v5)))
          (broadcastInDim S850000x128 ![] bcast_S_S850000x128 (constant S_ .f32 0x7FC00000#32)) := by
  simp only [hostOps3_1, List.drop_succ_cons, List.drop_zero]
  after_results_simp <;> (try simp only [TRef.ofBuf, TRef.toBuf, cast_cast, cast_eq]) <;> (try rfl)

/-- The guarded read of the rows (src e) of the third launch's output. -/
theorem take3 :
    after (hostOps3_1 (F := F)) V (Proc.devRef .tc main_v58)
      = readRows128 (F := F) (V (Proc.devRef .tc main_v3)) (V (Proc.devRef .tc main_v56)) := by
  rw [takeSplit3, Idealize.ShloMosaic.StableHlo.after_append, Idealize.ShloMosaic.StableHlo.after_append, takeSel3, takeMask3,
    takeMaskKeep3 _ main_call5_v5 (by decide), takeMaskKeep3 _ main_v56 (by decide), takeIdx3,
    takeIdxKeep3 _ main_v56 (by decide)]
  rfl

end Cert.Gcn.HostSteps

end
-- ==== Proof.KernelChain.lean ====
/-
  The kernel program's host stretches put end to end, for any float family.

  @main is fourteen stretches of host operations around three launches.  With the per-stretch lemmas
  (HostSteps, HostLayer, HostTake) the contents of the buffers that matter are followed from one boundary to
  the next:
    * before the first launch: the extended edge list (src, dst) and norm are functions of the edge array,
      and the arguments are as launched;
    * the stretch after a launch reads the rows (src e) of the launch's output with the guard, weights
      them by norm, adds them up per destination, adds the bias (and takes max(., 0) after the first two);
    * src, dst, norm and the later layers' weights and biases are written by none of this, nor by a launch
      (which writes its output array only), and ride along to where they are read.
-/
import proofs.«403011_j35158602285142_1_alg».proof.Proof.Spec
import proofs.«403011_j35158602285142_1_alg».proof.Proof.HostSteps
import proofs.«403011_j35158602285142_1_alg».proof.Proof.HostLayer1
import proofs.«403011_j35158602285142_1_alg».proof.Proof.HostLayer2
import proofs.«403011_j35158602285142_1_alg».proof.Proof.HostLayer3
import proofs.«403011_j35158602285142_1_alg».proof.Proof.HostTake1
import proofs.«403011_j35158602285142_1_alg».proof.Proof.HostTake2
import proofs.«403011_j35158602285142_1_alg».proof.Proof.HostTake3
import proofs.«403011_j35158602285142_1_alg».proof.Proof.Gen.KernelIdeal.Frame

set_option maxRecDepth 16384
set_option Elab.async false

noncomputable section

namespace Cert.Gcn.KernelChain

open Idealize.ShloMosaic Idealize.ShloMosaic.TcCoe Idealize.SL.Sem Idealize.ShloMosaic.StableHlo
open Cert.KernelIdeal Cert.KernelIdeal.Gen Cert.Gcn.HostSteps

variable {F : FTy → Type} [FloatOps F]
variable (m : (ℓ : Loc nD τ sig) → Buf (Elt F) ℓ) (ρ : Dev nD → PrngReg)

/-! ## Up to the first launch -/

/-- The arguments are as launched when the first launch is entered. -/
theorem W3_arg (c : Dev nD) (b : Ref sig .tc)
    (hb : b ∈ [main_arg0, main_arg2, main_arg3, main_arg4, main_arg5, main_arg6, main_arg7, main_arg8]) :
    W3 m ρ c (Proc.devRef .tc b) = m ((c : Thread nD τ).loc b) := by
  show after hostOps0_2 (after hostOps0_1 (after hostOps0 (W0 m ρ c))) _ = _
  rw [keep0_2 _ b (List.mem_cons_of_mem _ (List.mem_cons_of_mem _ hb)),
    keep0_1 _ b (List.mem_cons_of_mem _ (List.mem_cons_of_mem _ hb)), keep0 _ b hb]

/-- The extended sources. -/
theorem W3_src (c : Dev nD) :
    W3 m ρ c (Proc.devRef .tc main_v3) = srcOf (m ((c : Thread nD τ).loc main_arg2)) := by
  show after hostOps0_2 (after hostOps0_1 (after hostOps0 (W0 m ρ c))) _ = _
  rw [keep0_2 _ main_v3 (by decide), keep0_1 _ main_v3 (by decide), src0]

/-- The extended destinations. -/
theorem W3_dst (c : Dev nD) :
    W3 m ρ c (Proc.devRef .tc main_v6) = dstOf (m ((c : Thread nD τ).loc main_arg2)) := by
  show after hostOps0_2 (after hostOps0_1 (after hostOps0 (W0 m ρ c))) _ = _
  rw [keep0_2 _ main_v6 (by decide), keep0_1 _ main_v6 (by decide), dst0]

/-- The edge weights. -/
theorem W3_norm (c : Dev nD) :
    W3 m ρ c (Proc.devRef .tc main_v31)
      = normOf (F := F) (srcOf (m ((c : Thread nD τ).loc main_arg2))) (dstOf (m ((c : Thread nD τ).loc main_arg2))) := by
  show after hostOps0_2 (after hostOps0_1 (after hostOps0 (W0 m ρ c))) _ = _
  rw [norm0_2, dis0_1, keep0_1 _ main_v3 (by decide), keep0_1 _ main_v6 (by decide), degPos0, degRsqrt0, zero0, src0, dst0]
  rfl

/-! ## The stretch after the first launch -/

/-- What it does not write. -/
theorem W8_keep (c : Dev nD) (b : Ref sig .tc)
    (hb : b ∈ [main_v3, main_v6, main_v31, main_arg5, main_arg6, main_arg7, main_arg8]) :
    W8 m ρ c (Proc.devRef .tc b) = W4 m ρ c (Proc.devRef .tc b) := by
  show after hostOps1_3 (after hostOps1_2 (after hostOps1_1 (after hostOps1 (W4 m ρ c)))) _ = _
  rw [keep1_3 _ b hb, keep1_2 _ b hb, keep1_1 _ b (List.mem_cons_of_mem _ (List.mem_cons_of_mem _ hb)),
    keep1 _ b (List.mem_cons_of_mem _ (List.mem_cons_of_mem _ hb))]

/-- The first layer's output, from the buffers as the first launch leaves them. -/
theorem W8_layer (c : Dev nD) :
    W8 m ρ c (Proc.devRef .tc main_v43)
      = relu256 (F := F) (aggregate256 (F := F) (W4 m ρ c (Proc.devRef .tc main_v31)) (W4 m ρ c (Proc.devRef .tc main_v6))
          (readRows256 (F := F) (W4 m ρ c (Proc.devRef .tc main_v3)) (W4 m ρ c (Proc.devRef .tc main_v32)))
          (W4 m ρ c (Proc.devRef .tc main_arg4))) := by
  show after hostOps1_3 (after hostOps1_2 (after hostOps1_1 (after hostOps1 (W4 m ρ c)))) _ = _
  rw [relu1, agg1, keep1_1 _ main_v33 (by decide), keep1_1 _ main_v6 (by decide), keep1_1 _ main_arg4 (by decide),
    take1, col1, keep1 _ main_v6 (by decide), keep1 _ main_arg4 (by decide), keep1 _ main_v3 (by decide),
    keep1 _ main_v32 (by decide), aggregate256_eq]

/-! ## The stretch after the second launch -/

theorem W13_keep (c : Dev nD) (b : Ref sig .tc)
    (hb : b ∈ [main_v3, main_v6, main_v31, main_arg7, main_arg8]) :
    W13 m ρ c (Proc.devRef .tc b) = W9 m ρ c (Proc.devRef .tc b) := by
  have hb' : b ∈ [main_v3, main_v6, main_v31, main_arg5, main_arg6, main_arg7, main_arg8] := by
    simp only [List.mem_cons, List.mem_nil_iff, or_false] at hb
    rcases hb with rfl | rfl | rfl | rfl | rfl <;> decide
  show after hostOps2_3 (after hostOps2_2 (after hostOps2_1 (after hostOps2 (W9 m ρ c)))) _ = _
  rw [keep2_3 _ b hb, keep2_2 _ b hb', keep2_1 _ b (List.mem_cons_of_mem _ (List.mem_cons_of_mem _ hb')),
    keep2 _ b (List.mem_cons_of_mem _ (List.mem_cons_of_mem _ hb'))]

/-- The second layer's output. -/
theorem W13_layer (c : Dev nD) :
    W13 m ρ c (Proc.devRef .tc main_v55)
      = relu256 (F := F) (aggregate256 (F := F) (W9 m ρ c (Proc.devRef .tc main_v31)) (W9 m ρ c (Proc.devRef .tc main_v6))
          (readRows256 (F := F) (W9 m ρ c (Proc.devRef .tc main_v3)) (W9 m ρ c (Proc.devRef .tc main_v44)))
          (W9 m ρ c (Proc.devRef .tc main_arg6))) := by
  show after hostOps2_3 (after hostOps2_2 (after hostOps2_1 (after hostOps2 (W9 m ρ c)))) _ = _
  rw [relu2, agg2, keep2_1 _ main_v45 (by decide), keep2_1 _ main_v6 (by decide), keep2_1 _ main_arg6 (by decide),
    take2, col2, keep2 _ main_v6 (by decide), keep2 _ main_arg6 (by decide), keep2 _ main_v3 (by decide),
    keep2 _ main_v44 (by decide), aggregate256_eq]

/-! ## The last stretch -/

/-- The result buffer, from the buffers as the third launch leaves them. -/
theorem W17_layer (c : Dev nD) :
    W17 m ρ c (Proc.devRef .tc main_v66)
      = aggregate128 (F := F) (W14 m ρ c (Proc.devRef .tc main_v31)) (W14 m ρ c (Proc.devRef .tc main_v6))
          (readRows128 (F := F) (W14 m ρ c (Proc.devRef .tc main_v3)) (W14 m ρ c (Proc.devRef .tc main_v56)))
          (W14 m ρ c (Proc.devRef .tc main_arg8)) := by
  show after hostOps3_2 (after hostOps3_1 (after hostOps3 (W14 m ρ c))) _ = _
  rw [agg3, keep3_1 _ main_v57 (by decide), keep3_1 _ main_v6 (by decide), keep3_1 _ main_arg8 (by decide),
    take3, col3, keep3 _ main_v6 (by decide), keep3 _ main_arg8 (by decide), keep3 _ main_v3 (by decide),
    keep3 _ main_v56 (by decide), aggregate128_eq]

/-! ## The carried buffers at every boundary, from the launch memory -/

section Carried

variable (c : Dev nD)

theorem W4_src : W4 m ρ c (Proc.devRef .tc main_v3) = srcOf (m ((c : Thread nD τ).loc main_arg2)) :=
  (W4_of_ne m ρ c main_v3 (by decide)).trans (W3_src m ρ c)
theorem W4_dst : W4 m ρ c (Proc.devRef .tc main_v6) = dstOf (m ((c : Thread nD τ).loc main_arg2)) :=
  (W4_of_ne m ρ c main_v6 (by decide)).trans (W3_dst m ρ c)
theorem W4_norm : W4 m ρ c (Proc.devRef .tc main_v31) = normOf (F := F) (srcOf (m ((c : Thread nD τ).loc main_arg2))) (dstOf (m ((c : Thread nD τ).loc main_arg2))) :=
  (W4_of_ne m ρ c main_v31 (by decide)).trans (W3_norm m ρ c)
theorem W4_arg (b : Ref sig .tc) (hb : b ∈ [main_arg4, main_arg5, main_arg6, main_arg7, main_arg8]) :
    W4 m ρ c (Proc.devRef .tc b) = m ((c : Thread nD τ).loc b) := by
  simp only [List.mem_cons, List.mem_nil_iff, or_false] at hb
  rcases hb with rfl | rfl | rfl | rfl | rfl
  · exact (W4_of_ne m ρ c main_arg4 (by decide)).trans (W3_arg m ρ c main_arg4 (by decide))
  · exact (W4_of_ne m ρ c main_arg5 (by decide)).trans (W3_arg m ρ c main_arg5 (by decide))
  · exact (W4_of_ne m ρ c main_arg6 (by decide)).trans (W3_arg m ρ c main_arg6 (by decide))
  · exact (W4_of_ne m ρ c main_arg7 (by decide)).trans (W3_arg m ρ c main_arg7 (by decide))
  · exact (W4_of_ne m ρ c main_arg8 (by decide)).trans (W3_arg m ρ c main_arg8 (by decide))

theorem W9_src : W9 m ρ c (Proc.devRef .tc main_v3) = srcOf (m ((c : Thread nD τ).loc main_arg2)) :=
  (W9_of_ne m ρ c main_v3 (by decide)).trans ((W8_keep m ρ c main_v3 (by decide)).trans (W4_src m ρ c))
theorem W9_dst : W9 m ρ c (Proc.devRef .tc main_v6) = dstOf (m ((c : Thread nD τ).loc main_arg2)) :=
  (W9_of_ne m ρ c main_v6 (by decide)).trans ((W8_keep m ρ c main_v6 (by decide)).trans (W4_dst m ρ c))
theorem W9_norm : W9 m ρ c (Proc.devRef .tc main_v31) = normOf (F := F) (srcOf (m ((c : Thread nD τ).loc main_arg2))) (dstOf (m ((c : Thread nD τ).loc main_arg2))) :=
  (W9_of_ne m ρ c main_v31 (by decide)).trans ((W8_keep m ρ c main_v31 (by decide)).trans (W4_norm m ρ c))
theorem W9_arg (b : Ref sig .tc) (hb : b ∈ [main_arg6, main_arg7, main_arg8]) :
    W9 m ρ c (Proc.devRef .tc b) = m ((c : Thread nD τ).loc b) := by
  simp only [List.mem_cons, List.mem_nil_iff, or_false] at hb
  rcases hb with rfl | rfl | rfl
  · exact (W9_of_ne m ρ c main_arg6 (by decide)).trans ((W8_keep m ρ c main_arg6 (by decide)).trans (W4_arg m ρ c main_arg6 (by decide)))
  · exact (W9_of_ne m ρ c main_arg7 (by decide)).trans ((W8_keep m ρ c main_arg7 (by decide)).trans (W4_arg m ρ c main_arg7 (by decide)))
  · exact (W9_of_ne m ρ c main_arg8 (by decide)).trans ((W8_keep m ρ c main_arg8 (by decide)).trans (W4_arg m ρ c main_arg8 (by decide)))

theorem W14_src : W14 m ρ c (Proc.devRef .tc main_v3) = srcOf (m ((c : Thread nD τ).loc main_arg2)) :=
  (W14_of_ne m ρ c main_v3 (by decide)).trans ((W13_keep m ρ c main_v3 (by decide)).trans (W9_src m ρ c))
theorem W14_dst : W14 m ρ c (Proc.devRef .tc main_v6) = dstOf (m ((c : Thread nD τ).loc main_arg2)) :=
  (W14_of_ne m ρ c main_v6 (by decide)).trans ((W13_keep m ρ c main_v6 (by decide)).trans (W9_dst m ρ c))
theorem W14_norm : W14 m ρ c (Proc.devRef .tc main_v31) = normOf (F := F) (srcOf (m ((c : Thread nD τ).loc main_arg2))) (dstOf (m ((c : Thread nD τ).loc main_arg2))) :=
  (W14_of_ne m ρ c main_v31 (by decide)).trans ((W13_keep m ρ c main_v31 (by decide)).trans (W9_norm m ρ c))
theorem W14_arg8 : W14 m ρ c (Proc.devRef .tc main_arg8) = m ((c : Thread nD τ).loc main_arg8) :=
  (W14_of_ne m ρ c main_arg8 (by decide)).trans ((W13_keep m ρ c main_arg8 (by decide)).trans (W9_arg m ρ c main_arg8 (by decide)))

end Carried

end Cert.Gcn.KernelChain

end
-- ==== Proof.RegionValue.lean ====
/-
  What each of the three matrix-product launches leaves in its output array.

  A launch walks 25 grid points; point t reads rows 2000 t .. 2000 t + 1999 of H (all 256 columns) and the
  whole of W, and writes the product of the two blocks to the same rows of the output.  At the ideal
  instance the narrowing of both operands before the product is the identity and the product into a zero
  accumulator is the plain sum over k, so the block written at point t is the restriction of H W to its
  rows; the 25 row blocks tile the array, hence the array after the launch is H W.

  Order of the text: the operand indices of the four products (the two whole-array ones and the two block
  ones) as (row, k) and (k, column); each product at an index as the sum over k; then, launch by launch,
  the index maps over the grid, the payload at an index, the two input blocks read at the rows and columns
  the output block names, the block written back, the cover of the rows by the 25 blocks, and the array.
-/
import proofs.«403011_j35158602285142_1_alg».proof.Proof.Spec
import proofs.«403011_j35158602285142_1_alg».proof.Proof.Gen.KernelIdeal.Frame
import Idealize.ShloMosaic.Lib.Pipeline.Value
import Idealize.ShloMosaic.Lib.ValueIdx
import Idealize.ShloMosaic.PureOps.Ideal.Laws

noncomputable section

namespace Cert.Gcn.RegionValue

open Idealize.ShloMosaic Idealize.ShloMosaic.TcCoe Idealize.SL.Sem Cert.KernelIdeal Cert.KernelIdeal.Gen

/-- Both offsets of a whole-buffer load or store are zero. -/
theorem zeroOffsets : (![0, 0] : Fin 2 → Nat) = fun _ => 0 := funext fun a => by fin_cases a <;> rfl

/-! ## The operand indices of a product with one contracted axis

For each of the four products (whole arrays 50000x256 by 256x256 and by 256x128; row blocks 2000x256 by the same
right factors) the left operand is read at (row of the output index, k) and the right one at (k, column of the
output index). -/

theorem lhsRow_w256 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem lhsContr_w256 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhsContr_w256 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhsCol_w256 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- Entry (row of i, k) of the left factor. -/
abbrev lft_w256 (i : S50000x256.Idx) (k : Fin 256) : S50000x256.Idx := fun a => match a with
  | ⟨0, _⟩ => ⟨(i 0).val, (i 0).isLt⟩
  | ⟨1, _⟩ => ⟨k.val, k.isLt⟩
/-- Entry (k, column of i) of the right factor. -/
abbrev rgt_w256 (i : S50000x256.Idx) (k : Fin 256) : S256x256.Idx := fun a => match a with
  | ⟨0, _⟩ => ⟨k.val, k.isLt⟩
  | ⟨1, _⟩ => ⟨(i 1).val, (i 1).isLt⟩

/-- The two operand indices of the product at output index i and contraction index k are (row i, k) and (k, column i). -/
theorem operands_w256 (i : S50000x256.Idx) (k : Fin 256) :
    Cert.ReferenceIdeal.dot_S50000x256_S256x256_S50000x256_1_0_0_1_n_n.lhsIdx i ((ValueIdx.contrEquiv1 Cert.ReferenceIdeal.dot_S50000x256_S256x256_S50000x256_1_0_0_1_n_n 256 rfl rfl).symm k) = lft_w256 i k
    ∧ Cert.ReferenceIdeal.dot_S50000x256_S256x256_S50000x256_1_0_0_1_n_n.rhsIdx i ((ValueIdx.contrEquiv1 Cert.ReferenceIdeal.dot_S50000x256_S256x256_S50000x256_1_0_0_1_n_n 256 rfl rfl).symm k) = rgt_w256 i k := by
  have hk := ValueIdx.contrEquiv1_symm_val Cert.ReferenceIdeal.dot_S50000x256_S256x256_S50000x256_1_0_0_1_n_n 256 rfl rfl k
  refine ⟨funext fun a => Fin.ext ?_, funext fun a => Fin.ext ?_⟩
  · match a with
    | ⟨0, _⟩ => exact lhsRow_w256 _ _
    | ⟨1, _⟩ => exact (lhsContr_w256 _ _).trans hk
  · match a with
    | ⟨0, _⟩ => exact (rhsContr_w256 _ _).trans hk
    | ⟨1, _⟩ => exact rhsCol_w256 _ _

theorem lhsRow_w128 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
theorem lhsContr_w128 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem rhsContr_w128 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem rhsCol_w128 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- Entry (row of i, k) of the left factor. -/
abbrev lft_w128 (i : S50000x128.Idx) (k : Fin 256) : S50000x256.Idx := fun a => match a with
  | ⟨0, _⟩ => ⟨(i 0).val, (i 0).isLt⟩
  | ⟨1, _⟩ => ⟨k.val, k.isLt⟩
/-- Entry (k, column of i) of the right factor. -/
abbrev rgt_w128 (i : S50000x128.Idx) (k : Fin 256) : S256x128.Idx := fun a => match a with
  | ⟨0, _⟩ => ⟨k.val, k.isLt⟩
  | ⟨1, _⟩ => ⟨(i 1).val, (i 1).isLt⟩

/-- The two operand indices of the product at output index i and contraction index k are (row i, k) and (k, column i). -/
theorem operands_w128 (i : S50000x128.Idx) (k : Fin 256) :
    Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = lft_w128 i k
    ∧ Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = rgt_w128 i k := by
  have hk := ValueIdx.contrEquiv1_symm_val Cert.ReferenceIdeal.dot_S50000x256_S256x128_S50000x128_1_0_0_1_n_n 256 rfl rfl k
  refine ⟨funext fun a => Fin.ext ?_, funext fun a => Fin.ext ?_⟩
  · match a with
    | ⟨0, _⟩ => exact lhsRow_w128 _ _
    | ⟨1, _⟩ => exact (lhsContr_w128 _ _).trans hk
  · match a with
    | ⟨0, _⟩ => exact (rhsContr_w128 _ _).trans hk
    | ⟨1, _⟩ => exact rhsCol_w128 _ _

theorem lhsRow_b256 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsContr_b256 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsContr_b256 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsCol_b256 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (row of i, k) of the left factor. -/
abbrev lft_b256 (i : S2000x256.Idx) (k : Fin 256) : S2000x256.Idx := fun a => match a with
  | ⟨0, _⟩ => ⟨(i 0).val, (i 0).isLt⟩
  | ⟨1, _⟩ => ⟨k.val, k.isLt⟩
/-- Entry (k, column of i) of the right factor. -/
abbrev rgt_b256 (i : S2000x256.Idx) (k : Fin 256) : S256x256.Idx := fun a => match a with
  | ⟨0, _⟩ => ⟨k.val, k.isLt⟩
  | ⟨1, _⟩ => ⟨(i 1).val, (i 1).isLt⟩

/-- The two operand indices of the product at output index i and contraction index k are (row i, k) and (k, column i). -/
theorem operands_b256 (i : S2000x256.Idx) (k : Fin 256) :
    dot_S2000x256_S256x256_S2000x256_1_0_0_1_n_n.lhsIdx i ((ValueIdx.contrEquiv1 dot_S2000x256_S256x256_S2000x256_1_0_0_1_n_n 256 rfl rfl).symm k) = lft_b256 i k
    ∧ dot_S2000x256_S256x256_S2000x256_1_0_0_1_n_n.rhsIdx i ((ValueIdx.contrEquiv1 dot_S2000x256_S256x256_S2000x256_1_0_0_1_n_n 256 rfl rfl).symm k) = rgt_b256 i k := by
  have hk := ValueIdx.contrEquiv1_symm_val dot_S2000x256_S256x256_S2000x256_1_0_0_1_n_n 256 rfl rfl k
  refine ⟨funext fun a => Fin.ext ?_, funext fun a => Fin.ext ?_⟩
  · match a with
    | ⟨0, _⟩ => exact lhsRow_b256 _ _
    | ⟨1, _⟩ => exact (lhsContr_b256 _ _).trans hk
  · match a with
    | ⟨0, _⟩ => exact (rhsContr_b256 _ _).trans hk
    | ⟨1, _⟩ => exact rhsCol_b256 _ _

theorem lhsRow_b128 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsContr_b128 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhsContr_b128 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhsCol_b128 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (row of i, k) of the left factor. -/
abbrev lft_b128 (i : S2000x128.Idx) (k : Fin 256) : S2000x256.Idx := fun a => match a with
  | ⟨0, _⟩ => ⟨(i 0).val, (i 0).isLt⟩
  | ⟨1, _⟩ => ⟨k.val, k.isLt⟩
/-- Entry (k, column of i) of the right factor. -/
abbrev rgt_b128 (i : S2000x128.Idx) (k : Fin 256) : S256x128.Idx := fun a => match a with
  | ⟨0, _⟩ => ⟨k.val, k.isLt⟩
  | ⟨1, _⟩ => ⟨(i 1).val, (i 1).isLt⟩

/-- The two operand indices of the product at output index i and contraction index k are (row i, k) and (k, column i). -/
theorem operands_b128 (i : S2000x128.Idx) (k : Fin 256) :
    dot_S2000x256_S256x128_S2000x128_1_0_0_1_n_n.lhsIdx i ((ValueIdx.contrEquiv1 dot_S2000x256_S256x128_S2000x128_1_0_0_1_n_n 256 rfl rfl).symm k) = lft_b128 i k
    ∧ dot_S2000x256_S256x128_S2000x128_1_0_0_1_n_n.rhsIdx i ((ValueIdx.contrEquiv1 dot_S2000x256_S256x128_S2000x128_1_0_0_1_n_n 256 rfl rfl).symm k) = rgt_b128 i k := by
  have hk := ValueIdx.contrEquiv1_symm_val dot_S2000x256_S256x128_S2000x128_1_0_0_1_n_n 256 rfl rfl k
  refine ⟨funext fun a => Fin.ext ?_, funext fun a => Fin.ext ?_⟩
  · match a with
    | ⟨0, _⟩ => exact lhsRow_b128 _ _
    | ⟨1, _⟩ => exact (lhsContr_b128 _ _).trans hk
  · match a with
    | ⟨0, _⟩ => exact (rhsContr_b128 _ _).trans hk
    | ⟨1, _⟩ => exact rhsCol_b128 _ _

/-! ## Each product at an index -/

/-- The whole-array product at an index: (H W) i = sum over k of H (row i, k) * W (k, column i). -/
theorem mm256_apply (H : FVec Ideal S50000x256 .f32) (W : FVec Ideal S256x256 .f32) (i : S50000x256.Idx) :
    mm256 H W i = ∑ k : Fin 256, H (lft_w256 i k) * W (rgt_w256 i k) := by
  unfold mm256
  simp only [Host.dotGeneral]
  rw [Ideal.dotGeneral_apply, ← Equiv.sum_comp (ValueIdx.contrEquiv1 Cert.ReferenceIdeal.dot_S50000x256_S256x256_S50000x256_1_0_0_1_n_n 256 rfl rfl).symm]
  refine Finset.sum_congr rfl fun k _ => ?_
  rw [(operands_w256 i k).1, (operands_w256 i k).2]

/-- The whole-array product at an index: (H W) i = sum over k of H (row i, k) * W (k, column i). -/
theorem mm128_apply (H : FVec Ideal S50000x256 .f32) (W : FVec Ideal S256x128 .f32) (i : S50000x128.Idx) :
    mm128 H W i = ∑ k : Fin 256, H (lft_w128 i k) * W (rgt_w128 i k) := by
  unfold mm128
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  rw [(operands_w128 i k).1, (operands_w128 i k).2]

/-- The product of one row block with the right factor, into a zero accumulator, at an index of the block: the plain sum over k. -/
theorem blockProduct_b256 (x0 : FVec Ideal S2000x256 .bf16) (x1 : FVec Ideal S256x256 .bf16) (j : S2000x256.Idx) :
    matmul (F := Ideal) dot_S2000x256_S256x256_S2000x256_1_0_0_1_n_n none x0 x1 (constant S2000x256 .f32 0x00000000#32) j
      = ∑ k : Fin 256, x0 (lft_b256 j k) * x1 (rgt_b256 j k) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  rw [(operands_b256 j k).1, (operands_b256 j k).2]

/-- The product of one row block with the right factor, into a zero accumulator, at an index of the block: the plain sum over k. -/
theorem blockProduct_b128 (x0 : FVec Ideal S2000x256 .bf16) (x1 : FVec Ideal S256x128 .bf16) (j : S2000x128.Idx) :
    matmul (F := Ideal) dot_S2000x256_S256x128_S2000x128_1_0_0_1_n_n none x0 x1 (constant S2000x128 .f32 0x00000000#32) j
      = ∑ k : Fin 256, x0 (lft_b128 j k) * x1 (rgt_b128 j k) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  rw [(operands_b128 j k).1, (operands_b128 j k).2]

variable (V : (c : Dev nD) → (b : Ref sig .tc) → Buf (Elt Ideal) ((c : Thread nD τ).loc b))

/-! ## Launch 0 -/

/-- The printed index maps over the 25 grid points: H's block and the output's block sit at the same row block, the
    point's own number, and at column block 0; W's one block is at (0, 0). -/
theorem blockIndices0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload at an index of the output block: the sum over k of the loaded blocks' entries. -/
theorem payload0_apply (x0 : Vec Ideal S2000x256 .f32) (x1 : Vec Ideal S256x256 .f32) (j : S2000x256.Idx) :
    (k0_pay1 (F := Ideal) x0 x1) j = ∑ k : Fin 256, x0 (lft_b256 j k) * x1 (rgt_b256 j k) := by
  unfold k0_pay1
  exact blockProduct_b256 _ _ j

/-- H's block at point t, at (row r of the block, k), is H at (row r of the output's block at t, k). -/
theorem leftBlock0 (c : Dev nD) (t : Fin cfg0.N) (j : S2000x256.Idx) (k : Fin 256) :
    (iblk0 V c 0 t : Vec Ideal S2000x256 .f32) (lft_b256 j k)
      = (V c main_arg0 : S50000x256.Idx → Elt Ideal .f32) (lft_w256 (((cfg0.win 2).blk t).view.emb j) k) := by
  obtain ⟨e0, e1, e2, e3, e4, e5⟩ := blockIndices0 t
  show V c main_arg0 (((cfg0.win 0).blk t).view.emb (lft_b256 j k)) = V c main_arg0 _
  refine congrArg _ (funext fun a => Fin.ext ?_)
  match a with
  | ⟨0, _⟩ => show win0_0.index t (0 : Fin 2) * 2000 + 1 * (j 0).val = win0_2.index t (0 : Fin 2) * 2000 + 1 * (j 0).val; omega
  | ⟨1, _⟩ => show win0_0.index t (1 : Fin 2) * 256 + 1 * k.val = k.val; omega

/-- W's one block at (k, column) is W there. -/
theorem rightBlock0 (c : Dev nD) (t : Fin cfg0.N) (j : S2000x256.Idx) (k : Fin 256) :
    (iblk0 V c 1 t : Vec Ideal S256x256 .f32) (rgt_b256 j k)
      = (V c main_arg3 : S256x256.Idx → Elt Ideal .f32) (rgt_w256 (((cfg0.win 2).blk t).view.emb j) k) := by
  obtain ⟨e0, e1, e2, e3, e4, e5⟩ := blockIndices0 t
  show V c main_arg3 (((cfg0.win 1).blk t).view.emb (rgt_b256 j k)) = V c main_arg3 _
  refine congrArg _ (funext fun a => Fin.ext ?_)
  match a with
  | ⟨0, _⟩ => show win0_1.index t (0 : Fin 2) * 256 + 1 * k.val = k.val; omega
  | ⟨1, _⟩ => show win0_1.index t (1 : Fin 2) * 256 + 1 * (j 1).val = win0_2.index t (1 : Fin 2) * 256 + 1 * (j 1).val; omega

/-- What point t writes back is block t of H W. -/
theorem writtenBack0 (c : Dev nD) (t : Fin cfg0.N) :
    (dat0 (F := Ideal) V c).flushed 2 t
      = ((cfg0.win 2).blk t).view.read (Elt Ideal) (mm256 (F := Ideal) (V c main_arg0) (V c main_arg3)) := by
  show (cfg0.win 2).cut (grid0.coords t) ((dat0 (F := Ideal) V c).after 2 t) = _
  rw [after0_2]
  unfold out0_2
  rw [View.canon_unit_zero zeroOffsets]
  simp only [View.ld_unit_zero (S := S2000x256) zeroOffsets, View.ld_unit_zero (S := S256x256) zeroOffsets]
  funext j
  refine (payload0_apply (iblk0 V c 0 t) (iblk0 V c 1 t) j).trans ?_
  refine Eq.trans ?_ (mm256_apply (V c main_arg0) (V c main_arg3) (((cfg0.win 2).blk t).view.emb j)).symm
  refine Finset.sum_congr rfl fun k _ => ?_
  exact congrArg₂ (· * ·) (leftBlock0 V c t j k) (rightBlock0 V c t j k)

/-- An index of the output array is in point t's block iff each coordinate is in the block's range on its axis. -/
theorem inBlock0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- The 25 row blocks tile the 50000 rows: row r lies in the block of point r / 2000. -/
theorem tiled0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, Nat.lt_of_lt_of_eq (by omega) N_0.symm⟩, rfl⟩
  obtain ⟨e0, e1, e2, e3, e4, e5⟩ := blockIndices0 t
  refine ⟨t, flush0_2 t, ?_⟩
  rw [inBlock0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- First launch: the output array ends at (features) (W1). -/
theorem region0 (c : Dev nD) :
    (dat0 (F := Ideal) V c).arrAt 2 cfg0.N = mm256 (F := Ideal) (V c main_arg0) (V c main_arg3) :=
  (dat0 (F := Ideal) V c).arrAt_eq_of_cover 2 (mm256 (F := Ideal) (V c main_arg0) (V c main_arg3))
    (fun t _ => writtenBack0 V c t) tiled0

/-! ## Launch 1

The same shapes as launch 0. H and W are the arrays this launch's first two windows are over, at whatever contents the
launch finds them; the body casts the loaded block of H to its own shape before narrowing it, which changes nothing. -/

/-- Over the 25 grid points the index maps are launch 0's: H's block and the output's block at row block t, column
    block 0; W's only block at (0, 0). -/
theorem blockIndices1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The payload at an index of the output block: the cast to the same shape drops out and the block product remains. -/
theorem payload1_apply (x0 : Vec Ideal S2000x256 .f32) (x1 : Vec Ideal S256x256 .f32) (j : S2000x256.Idx) :
    (k1_pay1 (F := Ideal) x0 x1) j = ∑ k : Fin 256, x0 (lft_b256 j k) * x1 (rgt_b256 j k) := by
  unfold k1_pay1
  simp only [shapeCast_self]
  exact blockProduct_b256 _ _ j

/-- Row r of H's block at point t is row 2000 t + r of H, the row the output's block has there. -/
theorem leftBlock1 (c : Dev nD) (t : Fin cfg1.N) (j : S2000x256.Idx) (k : Fin 256) :
    (iblk1 V c 0 t : Vec Ideal S2000x256 .f32) (lft_b256 j k)
      = (V c main_v43 : S50000x256.Idx → Elt Ideal .f32) (lft_w256 (((cfg1.win 2).blk t).view.emb j) k) := by
  obtain ⟨e0, e1, e2, e3, e4, e5⟩ := blockIndices1 t
  show V c main_v43 (((cfg1.win 0).blk t).view.emb (lft_b256 j k)) = V c main_v43 _
  refine congrArg _ (funext fun a => Fin.ext ?_)
  match a with
  | ⟨0, _⟩ => show win1_0.index t (0 : Fin 2) * 2000 + 1 * (j 0).val = win1_2.index t (0 : Fin 2) * 2000 + 1 * (j 0).val; omega
  | ⟨1, _⟩ => show win1_0.index t (1 : Fin 2) * 256 + 1 * k.val = k.val; omega

/-- W's block is all of W: entry (k, column) of the block is that entry of W. -/
theorem rightBlock1 (c : Dev nD) (t : Fin cfg1.N) (j : S2000x256.Idx) (k : Fin 256) :
    (iblk1 V c 1 t : Vec Ideal S256x256 .f32) (rgt_b256 j k)
      = (V c main_arg5 : S256x256.Idx → Elt Ideal .f32) (rgt_w256 (((cfg1.win 2).blk t).view.emb j) k) := by
  obtain ⟨e0, e1, e2, e3, e4, e5⟩ := blockIndices1 t
  show V c main_arg5 (((cfg1.win 1).blk t).view.emb (rgt_b256 j k)) = V c main_arg5 _
  refine congrArg _ (funext fun a => Fin.ext ?_)
  match a with
  | ⟨0, _⟩ => show win1_1.index t (0 : Fin 2) * 256 + 1 * k.val = k.val; omega
  | ⟨1, _⟩ => show win1_1.index t (1 : Fin 2) * 256 + 1 * (j 1).val = win1_2.index t (1 : Fin 2) * 256 + 1 * (j 1).val; omega

/-- Point t writes back rows 2000 t .. 2000 t + 1999 of H W. -/
theorem writtenBack1 (c : Dev nD) (t : Fin cfg1.N) :
    (dat1 (F := Ideal) V c).flushed 2 t
      = ((cfg1.win 2).blk t).view.read (Elt Ideal) (mm256 (F := Ideal) (V c main_v43) (V c main_arg5)) := by
  show (cfg1.win 2).cut (grid1.coords t) ((dat1 (F := Ideal) V c).after 2 t) = _
  rw [after1_2]
  unfold out1_2
  rw [View.canon_unit_zero zeroOffsets]
  simp only [View.ld_unit_zero (S := S2000x256) zeroOffsets, View.ld_unit_zero (S := S256x256) zeroOffsets]
  funext j
  refine (payload1_apply (iblk1 V c 0 t) (iblk1 V c 1 t) j).trans ?_
  refine Eq.trans ?_ (mm256_apply (V c main_v43) (V c main_arg5) (((cfg1.win 2).blk t).view.emb j)).symm
  refine Finset.sum_congr rfl fun k _ => ?_
  exact congrArg₂ (· * ·) (leftBlock1 V c t j k) (rightBlock1 V c t j k)

/-- Membership in point t's output block, axis by axis. -/
theorem inBlock1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v44).slice (win1_2.rect t)).set ↔ _
  rw [View.set_slice_whole, Rect.mem_set_unit]
  exact Iff.rfl

/-- Every index of the output array lies in the block of the point (its row) / 2000. -/
theorem tiled1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, Nat.lt_of_lt_of_eq (by omega) N_1.symm⟩, rfl⟩
  obtain ⟨e0, e1, e2, e3, e4, e5⟩ := blockIndices1 t
  refine ⟨t, flush1_2 t, ?_⟩
  rw [inBlock1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- Second launch. -/
theorem region1 (c : Dev nD) :
    (dat1 (F := Ideal) V c).arrAt 2 cfg1.N = mm256 (F := Ideal) (V c main_v43) (V c main_arg5) :=
  (dat1 (F := Ideal) V c).arrAt_eq_of_cover 2 (mm256 (F := Ideal) (V c main_v43) (V c main_arg5))
    (fun t _ => writtenBack1 V c t) tiled1

/-! ## Launch 2

Here H is 50000 x 256 and W is 256 x 128 (again the arrays the first two windows are over, at whatever contents the
launch finds them), and the output and its blocks have 128 columns; the contraction still runs over 256 values of k. -/

/-- Over the 25 grid points: H's block and the output's block at row block t, column block 0; W's only block at (0, 0). -/
theorem blockIndices2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The payload at an index of the 2000 x 128 output block: the sum over k of H's block at (row, k) times W at (k, column). -/
theorem payload2_apply (x0 : Vec Ideal S2000x256 .f32) (x1 : Vec Ideal S256x128 .f32) (j : S2000x128.Idx) :
    (k2_pay1 (F := Ideal) x0 x1) j = ∑ k : Fin 256, x0 (lft_b128 j k) * x1 (rgt_b128 j k) := by
  unfold k2_pay1
  simp only [shapeCast_self]
  exact blockProduct_b128 _ _ j

/-- Row r of H's block at point t is row 2000 t + r of H; the column of H read is k, whatever the output's column. -/
theorem leftBlock2 (c : Dev nD) (t : Fin cfg2.N) (j : S2000x128.Idx) (k : Fin 256) :
    (iblk2 V c 0 t : Vec Ideal S2000x256 .f32) (lft_b128 j k)
      = (V c main_v55 : S50000x256.Idx → Elt Ideal .f32) (lft_w128 (((cfg2.win 2).blk t).view.emb j) k) := by
  obtain ⟨e0, e1, e2, e3, e4, e5⟩ := blockIndices2 t
  show V c main_v55 (((cfg2.win 0).blk t).view.emb (lft_b128 j k)) = V c main_v55 _
  refine congrArg _ (funext fun a => Fin.ext ?_)
  match a with
  | ⟨0, _⟩ => show win2_0.index t (0 : Fin 2) * 2000 + 1 * (j 0).val = win2_2.index t (0 : Fin 2) * 2000 + 1 * (j 0).val; omega
  | ⟨1, _⟩ => show win2_0.index t (1 : Fin 2) * 256 + 1 * k.val = k.val; omega

/-- W's block is all of W (256 x 128): entry (k, column) of the block is that entry of W. -/
theorem rightBlock2 (c : Dev nD) (t : Fin cfg2.N) (j : S2000x128.Idx) (k : Fin 256) :
    (iblk2 V c 1 t : Vec Ideal S256x128 .f32) (rgt_b128 j k)
      = (V c main_arg7 : S256x128.Idx → Elt Ideal .f32) (rgt_w128 (((cfg2.win 2).blk t).view.emb j) k) := by
  obtain ⟨e0, e1, e2, e3, e4, e5⟩ := blockIndices2 t
  show V c main_arg7 (((cfg2.win 1).blk t).view.emb (rgt_b128 j k)) = V c main_arg7 _
  refine congrArg _ (funext fun a => Fin.ext ?_)
  match a with
  | ⟨0, _⟩ => show win2_1.index t (0 : Fin 2) * 256 + 1 * k.val = k.val; omega
  | ⟨1, _⟩ => show win2_1.index t (1 : Fin 2) * 128 + 1 * (j 1).val = win2_2.index t (1 : Fin 2) * 128 + 1 * (j 1).val; omega

/-- Point t writes back rows 2000 t .. 2000 t + 1999 of H W (128 columns). -/
theorem writtenBack2 (c : Dev nD) (t : Fin cfg2.N) :
    (dat2 (F := Ideal) V c).flushed 2 t
      = ((cfg2.win 2).blk t).view.read (Elt Ideal) (mm128 (F := Ideal) (V c main_v55) (V c main_arg7)) := by
  show (cfg2.win 2).cut (grid2.coords t) ((dat2 (F := Ideal) V c).after 2 t) = _
  rw [after2_2]
  unfold out2_2
  rw [View.canon_unit_zero zeroOffsets]
  simp only [View.ld_unit_zero (S := S2000x256) zeroOffsets, View.ld_unit_zero (S := S256x128) zeroOffsets]
  funext j
  refine (payload2_apply (iblk2 V c 0 t) (iblk2 V c 1 t) j).trans ?_
  refine Eq.trans ?_ (mm128_apply (V c main_v55) (V c main_arg7) (((cfg2.win 2).blk t).view.emb j)).symm
  refine Finset.sum_congr rfl fun k _ => ?_
  exact congrArg₂ (· * ·) (leftBlock2 V c t j k) (rightBlock2 V c t j k)

/-- Membership in point t's 2000 x 128 output block, axis by axis. -/
theorem inBlock2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v56).slice (win2_2.rect t)).set ↔ _
  rw [View.set_slice_whole, Rect.mem_set_unit]
  exact Iff.rfl

/-- Every index of the 50000 x 128 output lies in the block of the point (its row) / 2000. -/
theorem tiled2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, Nat.lt_of_lt_of_eq (by omega) N_2.symm⟩, rfl⟩
  obtain ⟨e0, e1, e2, e3, e4, e5⟩ := blockIndices2 t
  refine ⟨t, flush2_2 t, ?_⟩
  rw [inBlock2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- Third launch (256 to 128). -/
theorem region2 (c : Dev nD) :
    (dat2 (F := Ideal) V c).arrAt 2 cfg2.N = mm128 (F := Ideal) (V c main_v55) (V c main_arg7) :=
  (dat2 (F := Ideal) V c).arrAt_eq_of_cover 2 (mm128 (F := Ideal) (V c main_v55) (V c main_arg7))
    (fun t _ => writtenBack2 V c t) tiled2

end Cert.Gcn.RegionValue

end
-- ==== Proof.KernelValue.lean ====
/-
  The kernel program's result buffer as the network of Spec.lean with the guarded row read.

  The host stretches are followed in KernelChain, for any float family.  Here, over the extended reals, each
  launch's output array is the product of its two operand arrays (RegionValue), and the pieces are put
  together: the result buffer is three layers over src, dst, norm, each reading the rows of its product
  with the guard.
-/
import proofs.«403011_j35158602285142_1_alg».proof.Proof.Spec
import proofs.«403011_j35158602285142_1_alg».proof.Proof.RegionValue
import proofs.«403011_j35158602285142_1_alg».proof.Proof.KernelChain

set_option maxRecDepth 16384

noncomputable section

namespace Cert.Gcn.KernelValue

open Idealize.ShloMosaic Idealize.ShloMosaic.TcCoe Idealize.SL.Sem
open Cert.KernelIdeal Cert.KernelIdeal.Gen Cert.Gcn.KernelChain

variable (m : (ℓ : Loc nD τ sig) → Buf (Elt Ideal) ℓ) (ρ : Dev nD → PrngReg)

/-- The first product, of the launch contents of the features and the first weights. -/
theorem W4_out (c : Dev nD) :
    W4 m ρ c (Proc.devRef .tc main_v32)
      = mm256 (F := Ideal) (m ((c : Thread nD τ).loc main_arg0)) (m ((c : Thread nD τ).loc main_arg3)) :=
  (W4_arr m ρ c 2).trans ((RegionValue.region0 (V3 m ρ) c).trans
    (congrArg₂ (mm256 (F := Ideal)) (W3_arg m ρ c main_arg0 (by decide)) (W3_arg m ρ c main_arg3 (by decide))))

/-- The second product, from the buffers as the second launch finds them. -/
theorem W9_out (c : Dev nD) :
    W9 m ρ c (Proc.devRef .tc main_v44)
      = mm256 (F := Ideal) (W8 m ρ c (Proc.devRef .tc main_v43)) (W8 m ρ c (Proc.devRef .tc main_arg5)) :=
  (W9_arr m ρ c 2).trans (RegionValue.region1 (V8 m ρ) c)

/-- The third product. -/
theorem W14_out (c : Dev nD) :
    W14 m ρ c (Proc.devRef .tc main_v56)
      = mm128 (F := Ideal) (W13 m ρ c (Proc.devRef .tc main_v55)) (W13 m ρ c (Proc.devRef .tc main_arg7)) :=
  (W14_arr m ρ c 2).trans (RegionValue.region2 (V13 m ρ) c)

/-- The result buffer ends at the network with the guarded row read, of the launch contents of the arguments. -/
theorem result (c : Dev nD) :
    W17 m ρ c (Proc.devRef .tc main_v66)
      = netOf (F := Ideal) readRows256 readRows128
          (m ((c : Thread nD τ).loc main_arg0)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8)) := by
  rw [W17_layer, W14_out, W13_layer, W9_out, W8_layer, W4_out,
    W14_src, W14_dst, W14_norm, W14_arg8,
    (W13_keep m ρ c main_arg7 (by decide)).trans (W9_arg m ρ c main_arg7 (by decide)),
    W9_src, W9_dst, W9_norm, W9_arg m ρ c main_arg6 (by decide),
    (W8_keep m ρ c main_arg5 (by decide)).trans (W4_arg m ρ c main_arg5 (by decide)),
    W4_src, W4_dst, W4_norm, W4_arg m ρ c main_arg4 (by decide)]
  unfold netOf
  rfl

end Cert.Gcn.KernelValue

end
-- ==== Proof.RefValue.lean ====
/-
  The reference program's result, as the network of Spec.lean with the plain row gather.

  The reference is one straight line of host operations; its run gives the result buffer as one composed
  term of the arguments, and that term is the network with gatherRows for the row read: the two spell the
  same operations in the same order, over shape and dimension records that the two printed programs each
  declare for themselves with the same contents.  The comparison is made at an abstract float family, where
  no operation can be opened.
-/
import proofs.«403011_j35158602285142_1_alg».proof.Proof.Spec
import proofs.«403011_j35158602285142_1_alg».proof.Proof.ReferenceRun

set_option maxRecDepth 16384

noncomputable section

namespace Cert.Gcn.RefValue

open Idealize.ShloMosaic Idealize.ShloMosaic.TcCoe Idealize.SL.Sem
open Cert.ReferenceIdeal

variable {F : FTy → Type} [FloatOps F]

set_option maxHeartbeats 4000000 in
/-- The reference's result term is the network with the plain gather, of the launch contents of the arguments. -/
theorem result (m : (ℓ : Loc nD τ sig) → Buf (Elt F) ℓ) (c : Dev nD) :
    Cert.ReferenceIdeal.Value.res_main_v84 (F := F) m c
      = netOf (F := F) gatherRows256 gatherRows128
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  unfold Cert.ReferenceIdeal.Value.res_main_v84
  rfl

end Cert.Gcn.RefValue

end
-- ==== Proof.lean ====
/-
  The certificate of a three-layer graph convolution network: a kernel program whose three products H W
  are matrix-product launches (row blocks of 2000, operands narrowed before the product) and whose
  per-edge row reads are guarded by a range test, against a reference that uses one whole product and a
  plain gather per layer.

  Over the extended reals the narrowing is the identity and a block product into a zero accumulator is
  the plain sum, so each launch leaves H W in its output array (RegionValue).  The guard replaces a row
  by a fill value only where the source index is not a node number; the precondition says every source
  index of the edge array is one, and the appended self loops are node numbers by construction, so the
  guard never fires (SrcRange).  Everything else the two programs do is the same operations in the same
  order: both results are the network netOf of Spec.lean, once with the guarded and once with the plain
  row read, and under the precondition those are one function.

  The three frames are the generated ones (the reference's is its run with the result dropped); the
  idealization ledger is empty.
-/
import proofs.«403011_j35158602285142_1_alg».proof.Defs
import proofs.«403011_j35158602285142_1_alg».proof.Proof.Gen.Kernel
import proofs.«403011_j35158602285142_1_alg».proof.Proof.Gen.Kernel.Frame
import proofs.«403011_j35158602285142_1_alg».proof.Proof.Gen.KernelIdeal
import proofs.«403011_j35158602285142_1_alg».proof.Proof.Gen.KernelIdeal.Frame
import proofs.«403011_j35158602285142_1_alg».proof.Proof.Gen.ReferenceIdeal
import proofs.«403011_j35158602285142_1_alg».proof.Proof.ReferenceRun
import proofs.«403011_j35158602285142_1_alg».proof.Proof.Gen.Pre_finite_inputs
import proofs.«403011_j35158602285142_1_alg».proof.Proof.Spec
import proofs.«403011_j35158602285142_1_alg».proof.Proof.SrcRange
import proofs.«403011_j35158602285142_1_alg».proof.Proof.KernelRun
import proofs.«403011_j35158602285142_1_alg».proof.Proof.KernelChain
import proofs.«403011_j35158602285142_1_alg».proof.Proof.KernelValue
import proofs.«403011_j35158602285142_1_alg».proof.Proof.RefValue

noncomputable section

namespace Cert.Proof

open Idealize.ShloMosaic Idealize.ShloMosaic.TcCoe Idealize.SL.Sem Cert.Gcn

/-- Where every source index is a node number, the network with the guarded row read is the network with the
    plain gather: the guard keeps every gathered row. -/
theorem net_guarded_eq {ei : IVec Cert.KernelIdeal.S2x800000 32} (h : SrcOk ei)
    (x : FVec Ideal Cert.KernelIdeal.S50000x256 .f32)
    (W1 : FVec Ideal Cert.KernelIdeal.S256x256 .f32) (b1 : FVec Ideal Cert.KernelIdeal.S256 .f32)
    (W2 : FVec Ideal Cert.KernelIdeal.S256x256 .f32) (b2 : FVec Ideal Cert.KernelIdeal.S256 .f32)
    (W3 : FVec Ideal Cert.KernelIdeal.S256x128 .f32) (b3 : FVec Ideal Cert.KernelIdeal.S128 .f32) :
    netOf (F := Ideal) readRows256 readRows128 x ei W1 b1 W2 b2 W3 b3 = netOf (F := Ideal) gatherRows256 gatherRows128 x ei W1 b1 W2 b2 W3 b3 := by
  unfold netOf
  simp only [readRows256_eq ei h, readRows128_eq ei h]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the network with the plain gather of their (agreeing) arguments. -/
theorem algebraic : Cert.algebraic_KernelIdeal_ReferenceIdeal := by
  intro m ρ m' ρ' hpre hagree
  have hok : ∀ c : Dev Cert.KernelIdeal.nD,
      SrcOk (m ((c.tc : Thread Cert.KernelIdeal.nD Cert.KernelIdeal.τ).loc Cert.KernelIdeal.main_arg2)) :=
    fun c => srcOk_of_pre (F := Ideal) _ _ _ _ _ _ _ _ _ (hpre c)
  refine ⟨fun c => netOf (F := Ideal) gatherRows256 gatherRows128
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.Gen.run_result (F := Ideal) m ρ)
    exact (KernelValue.result m ρ c).trans (net_guarded_eq (hok c) _ _ _ _ _ _ _)
  · refine (θ_run Cert.ReferenceIdeal.defs _ _).mono (fun r h c => ⟨(h c).1.trans ?_, (h c).2⟩)
      (Cert.ReferenceIdeal.Value.run (F := Ideal) m' ρ')
    rw [RefValue.result (F := Ideal) m' c, (hagree c).1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
